-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn {F : FTy → Type} [FloatOps F] (main_arg0 : FVec F S65536x256 .f32) (main_arg1 : FVec F S65536x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  main_v8
-- ==== Kernel.lean ====
abbrev S65536x256 : Shape := ⟨2, ![65536, 256]⟩
abbrev S32768x2x256 : Shape := ⟨3, ![32768, 2, 256]⟩
abbrev S16x128 : Shape := ⟨2, ![16, 128]⟩
abbrev S1024x2x256 : Shape := ⟨3, ![1024, 2, 256]⟩
abbrev S8x128 : Shape := ⟨2, ![8, 128]⟩
abbrev S1024x1x256 : Shape := ⟨3, ![1024, 1, 256]⟩
abbrev S1024x256 : Shape := ⟨2, ![1024, 256]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S_ : Shape := ⟨0, ![]⟩

abbrev nBuf : Space → Nat
  | .hbm => 12
  | .vmem => 6
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S32768x2x256, .f32⟩
  | .hbm, ⟨3, _⟩ => ⟨S32768x2x256, .f32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x2x256, .f32⟩
  | .local _ .vmem, ⟨1, _⟩ => ⟨S1024x2x256, .f32⟩
  | .local _ .vmem, ⟨2, _⟩ => ⟨S1024x2x256, .f32⟩
  | .local _ .vmem, ⟨3, _⟩ => ⟨S1024x2x256, .f32⟩
  | .local _ .vmem, ⟨4, _⟩ => ⟨S8x128, .f32⟩
  | .local _ .vmem, ⟨5, _⟩ => ⟨S8x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v151 : BitVec 1 := Scalar.cmpi .eq arg1 c0_i32
  let v152 : BitVec 32 := Scalar.extui v151
  let c0_i32_34 : BitVec 32 := 0#32
  let v153 : BitVec 1 := Scalar.cmpi .ne v152 c0_i32_34
  v153

def k0_cond2 (i : grid0.Coords) : BitVec 1 :=
  let arg1 : BitVec 32 := BitVec.ofNat 32 (i 1).val
  let c0_i32_35 : BitVec 32 := 0#32
  let v154 : BitVec 1 := Scalar.cmpi .ne arg1 c0_i32_35
  let v155 : BitVec 32 := Scalar.extui v154
  let c0_i32_36 : BitVec 32 := 0#32
  let v156 : BitVec 1 := Scalar.cmpi .ne v155 c0_i32_36
  v156

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S65536x256_S32768x2x256 : S65536x256.ShapeCasts S32768x2x256
  inb_S1024x2x256_S1024x2x256_0_0_0 : ∀ a, (![0, 0, 0] : Fin 3 → Nat) a + S1024x2x256.size a ≤ S1024x2x256.size a
  h_S1024x2x256 : 0 < S1024x2x256.numel
  shapeCasts_S1024x2x256_S1024x2x256 : S1024x2x256.ShapeCasts S1024x2x256
  slices_S1024x2x256_o0_0_0_S1024x1x256 : S1024x2x256.Slices ![0, 0, 0] S1024x1x256
  shapeCasts_S1024x1x256_S1024x256 : S1024x1x256.ShapeCasts S1024x256
  slices_S1024x2x256_o0_1_0_S1024x1x256 : S1024x2x256.Slices ![0, 1, 0] S1024x1x256
  reduces_S1024x256_S1024 : S1024x256.Reduces [1] S1024
  shapeCasts_S1024_S1024x1 : S1024.ShapeCasts S1024x1
  broadcasts_S1024x1_S1024x256 : S1024x1.Broadcasts S1024x256
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2x256.size a ≤ S32768x2x256.size a
  hwx0_0 : ∀ i : grid0.Coords, EltTy.bits .f32 = 32 ∨ (Rect.block (s := S32768x2x256) S1024x2x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2x256.size a ≤ S32768x2x256.size a
  hwx0_1 : ∀ i : grid0.Coords, EltTy.bits .f32 = 32 ∨ (Rect.block (s := S32768x2x256) S1024x2x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S1024x2x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S65536x256 : Shape := ⟨2, ![65536, 256]⟩
abbrev S4x2 : Shape := ⟨2, ![4, 2]⟩
abbrev S32768x2x256 : Shape := ⟨3, ![32768, 2, 256]⟩
abbrev S32768x4x256 : Shape := ⟨3, ![32768, 4, 256]⟩
abbrev S_ : Shape := ⟨0, ![]⟩
abbrev S32768x4 : Shape := ⟨2, ![32768, 4]⟩
abbrev S32768x4x1 : Shape := ⟨3, ![32768, 4, 1]⟩
abbrev S32768x4x4 : Shape := ⟨3, ![32768, 4, 4]⟩
abbrev S32768x1x1 : Shape := ⟨3, ![32768, 1, 1]⟩
abbrev S32768 : Shape := ⟨1, ![32768]⟩
abbrev S32768x1 : Shape := ⟨2, ![32768, 1]⟩
abbrev S1x4x2 : Shape := ⟨3, ![1, 4, 2]⟩
abbrev S4x2x1 : Shape := ⟨3, ![4, 2, 1]⟩
abbrev S1 : Shape := ⟨1, ![1]⟩
abbrev S1x1x1 : Shape := ⟨3, ![1, 1, 1]⟩
abbrev S32768x4x2 : Shape := ⟨3, ![32768, 4, 2]⟩
abbrev S32768x4x3 : Shape := ⟨3, ![32768, 4, 3]⟩

abbrev nBuf : Space → Nat
  | .hbm => 81
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S4x2, .i32⟩
  | .hbm, ⟨3, _⟩ => ⟨S32768x2x256, .f32⟩
  | .hbm, ⟨4, _⟩ => ⟨S32768x2x256, .f32⟩
  | .hbm, ⟨5, _⟩ => ⟨S32768x4x256, .f32⟩
  | .hbm, ⟨6, _⟩ => ⟨S32768x4x256, .f32⟩
  | .hbm, ⟨7, _⟩ => ⟨S_, .f32⟩
  | .hbm, ⟨8, _⟩ => ⟨S32768x4, .f32⟩
  | .hbm, ⟨9, _⟩ => ⟨S32768x4x1, .f32⟩
  | .hbm, ⟨10, _⟩ => ⟨S32768x4x1, .f32⟩
  | .hbm, ⟨11, _⟩ => ⟨S_, .f32⟩
  | .hbm, ⟨12, _⟩ => ⟨S32768x4x1, .f32⟩
  | .hbm, ⟨13, _⟩ => ⟨S32768x4x1, .f32⟩
  | .hbm, ⟨14, _⟩ => ⟨S32768x4x256, .f32⟩
  | .hbm, ⟨15, _⟩ => ⟨S32768x4x256, .f32⟩
  | .hbm, ⟨16, _⟩ => ⟨S32768x4x4, .f32⟩
  | .hbm, ⟨17, _⟩ => ⟨S32768x1x1, .f32⟩
  | .hbm, ⟨18, _⟩ => ⟨S32768, .f32⟩
  | .hbm, ⟨19, _⟩ => ⟨S32768x1x1, .f32⟩
  | .hbm, ⟨20, _⟩ => ⟨S32768, .f32⟩
  | .hbm, ⟨21, _⟩ => ⟨S32768x1x1, .f32⟩
  | .hbm, ⟨22, _⟩ => ⟨S32768, .f32⟩
  | .hbm, ⟨23, _⟩ => ⟨S32768x1x1, .f32⟩
  | .hbm, ⟨24, _⟩ => ⟨S32768, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x4, .f32⟩
  | .hbm, ⟨30, _⟩ => ⟨S1x4x2, .i32⟩
  | .hbm, ⟨31, _⟩ => ⟨S_, .i32⟩
  | .hbm, ⟨32, _⟩ => ⟨S1x4x2, .i32⟩
  | .hbm, ⟨33, _⟩ => ⟨S1x4x2, .i1⟩
  | .hbm, ⟨34, _⟩ => ⟨S_, .i32⟩
  | .hbm, ⟨35, _⟩ => ⟨S1x4x2, .i32⟩
  | .hbm, ⟨36, _⟩ => ⟨S1x4x2, .i32⟩
  | .hbm, ⟨37, _⟩ => ⟨S1x4x2, .i32⟩
  | .hbm, ⟨38, _⟩ => ⟨S4x2x1, .i32⟩
  | .hbm, ⟨39, _⟩ => ⟨S1, .i32⟩
  | .hbm, ⟨40, _⟩ => ⟨S_, .i32⟩
  | .hbm, ⟨41, _⟩ => ⟨S4x2x1, .i32⟩
  | .hbm, ⟨42, _⟩ => ⟨S4x2x1, .i1⟩
  | .hbm, ⟨43, _⟩ => ⟨S1x1x1, .i32⟩
  | .hbm, ⟨44, _⟩ => ⟨S4x2x1, .i32⟩
  | .hbm, ⟨45, _⟩ => ⟨S4x2x1, .i1⟩
  | .hbm, ⟨46, _⟩ => ⟨S4x2x1, .i1⟩
  | .hbm, ⟨47, _⟩ => ⟨S_, .i1⟩
  | .hbm, ⟨48, _⟩ => ⟨S4x2, .i1⟩
  | .hbm, ⟨49, _⟩ => ⟨S32768x4x2, .f32⟩
  | .hbm, ⟨50, _⟩ => ⟨S32768x4x2, .i1⟩
  | .hbm, ⟨51, _⟩ => ⟨S_, .f32⟩
  | .hbm, ⟨52, _⟩ => ⟨S32768x4x2, .f32⟩
  | .hbm, ⟨53, _⟩ => ⟨S32768x4x2, .f32⟩
  | .hbm, ⟨54, _⟩ => ⟨S32768x4x1, .f32⟩
  | .hbm, ⟨55, _⟩ => ⟨S32768x4x3, .f32⟩
  | .hbm, ⟨56, _⟩ => ⟨S_, .f32⟩
  | .hbm, ⟨57, _⟩ => ⟨S32768x4x3, .f32⟩
  | .hbm, ⟨58, _⟩ => ⟨S32768x4x3, .f32⟩
  | .hbm, ⟨59, _⟩ => ⟨S_, .f32⟩
  | .hbm, ⟨60, _⟩ => ⟨S32768x4, .f32⟩
  | .hbm, ⟨61, _⟩ => ⟨S_, .f32⟩
  | .hbm, ⟨62, _⟩ => ⟨S32768x4, .f32⟩
  | .hbm, ⟨63, _⟩ => ⟨S32768x4, .f32⟩
  | .hbm, ⟨64, _⟩ => ⟨S32768x4x1, .f32⟩
  | .hbm, ⟨65, _⟩ => ⟨S32768x4x3, .f32⟩
  | .hbm, ⟨66, _⟩ => ⟨S32768x4x3, .f32⟩
  | .hbm, ⟨67, _⟩ => ⟨S32768x4x3, .f32⟩
  | .hbm, ⟨68, _⟩ => ⟨S_, .f32⟩
  | .hbm, ⟨69, _⟩ => ⟨S32768x4, .f32⟩
  | .hbm, ⟨70, _⟩ => ⟨S32768x4x1, .f32⟩
  | .hbm, ⟨71, _⟩ => ⟨S32768x4x1, .f32⟩
  | .hbm, ⟨72, _⟩ => ⟨S32768x4x3, .f32⟩
  | .hbm, ⟨73, _⟩ => ⟨S32768x4x3, .f32⟩
  | .hbm, ⟨74, _⟩ => ⟨S32768x4x1, .f32⟩
  | .hbm, ⟨75, _⟩ => ⟨S32768x4, .f32⟩
  | .hbm, ⟨76, _⟩ => ⟨S32768x4, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_0 : Ref sig .tc := ⟨.hbm, 56, rfl⟩
abbrev main_v26 : Ref sig .tc := ⟨.hbm, 57, rfl⟩
abbrev main_v27 : Ref sig .tc := ⟨.hbm, 58, rfl⟩
abbrev main_call2_cst : Ref sig .tc := ⟨.hbm, 59, rfl⟩
abbrev main_call2_v0 : Ref sig .tc := ⟨.hbm, 60, rfl⟩
abbrev main_call2_cst_0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_cst_1 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_1 : Ref sig .tc := ⟨.hbm, 77, rfl⟩
abbrev main_v32 : Ref sig .tc := ⟨.hbm, 78, rfl⟩
abbrev main_cst_2 : Ref sig .tc := ⟨.hbm, 79, rfl⟩
abbrev main_v33 : Ref sig .tc := ⟨.hbm, 80, rfl⟩

abbrev nD : Nat := 1
abbrev τ : Topo := Topo.v7x

variable {F : FTy → Type} [FloatOps F]

class Facts₀ : Prop where
  shapeCasts_S65536x256_S32768x2x256 : S65536x256.ShapeCasts S32768x2x256
  concatenates_S32768x2x256_S32768x2x256_S32768x4x256_d1 : Shape.Concatenates [S32768x2x256, S32768x2x256] S32768x4x256 1
  reducesTo_S32768x4x256_S32768x4_d2 : S32768x4x256.ReducesTo [2] S32768x4
  h_S_ : 0 < S_.numel
  bcast_S32768x4_S32768x4x1_0_1 : S32768x4.BroadcastsInDim S32768x4x1 (![0, 1] : Fin 2 → Fin S32768x4x1.rank)
  bcast_S_S32768x4x1 : S_.BroadcastsInDim S32768x4x1 (![] : Fin 0 → Fin S32768x4x1.rank)
  bcast_S32768x4x1_S32768x4x256_0_1_2 : S32768x4x1.BroadcastsInDim S32768x4x256 (![0, 1, 2] : Fin 3 → Fin S32768x4x256.rank)
  slices_S32768x4x4_S32768x1x1_0_0_2 : S32768x4x4.Slices ![0, 0, 2] S32768x1x1
  shapeCasts_S32768x1x1_S32768 : S32768x1x1.ShapeCasts S32768
  slices_S32768x4x4_S32768x1x1_0_1_3 : S32768x4x4.Slices ![0, 1, 3] S32768x1x1
  slices_S32768x4x4_S32768x1x1_0_2_0 : S32768x4x4.Slices ![0, 2, 0] S32768x1x1
  slices_S32768x4x4_S32768x1x1_0_3_1 : S32768x4x4.Slices ![0, 3, 1] S32768x1x1
  bcast_S32768_S32768x1_0 : S32768.BroadcastsInDim S32768x1 (![0] : Fin 1 → Fin S32768x1.rank)
  concatenates_S32768x1_S32768x1_S32768x1_S32768x1_S32768x4_d1 : Shape.Concatenates [S32768x1, S32768x1, S32768x1, S32768x1] S32768x4 1
  bcast_S4x2_S1x4x2_1_2 : S4x2.BroadcastsInDim S1x4x2 (![1, 2] : Fin 2 → Fin S1x4x2.rank)
  bcast_S_S1x4x2 : S_.BroadcastsInDim S1x4x2 (![] : Fin 0 → Fin S1x4x2.rank)
  shapeCasts_S1x4x2_S4x2x1 : S1x4x2.ShapeCasts S4x2x1
  bcast_S_S4x2x1 : S_.BroadcastsInDim S4x2x1 (![] : Fin 0 → Fin S4x2x1.rank)
  bcast_S1_S1x1x1_2 : S1.BroadcastsInDim S1x1x1 (![2] : Fin 1 → Fin S1x1x1.rank)
  bcast_S1x1x1_S4x2x1_0_1_2 : S1x1x1.BroadcastsInDim S4x2x1 (![0, 1, 2] : Fin 3 → Fin S4x2x1.rank)
  reducesTo_S4x2x1_S4x2_d2 : S4x2x1.ReducesTo [2] S4x2
  bcast_S4x2_S32768x4x2_1_2 : S4x2.BroadcastsInDim S32768x4x2 (![1, 2] : Fin 2 → Fin S32768x4x2.rank)
  bcast_S_S32768x4x2 : S_.BroadcastsInDim S32768x4x2 (![] : Fin 0 → Fin S32768x4x2.rank)
  concatenates_S32768x4x1_S32768x4x2_S32768x4x3_d2 : Shape.Concatenates [S32768x4x1, S32768x4x2] S32768x4x3 2
  bcast_S_S32768x4x3 : S_.BroadcastsInDim S32768x4x3 (![] : Fin 0 → Fin S32768x4x3.rank)
  reducesTo_S32768x4x3_S32768x4_d2 : S32768x4x3.ReducesTo [2] S32768x4
  bcast_S_S32768x4 : S_.BroadcastsInDim S32768x4 (![] : Fin 0 → Fin S32768x4.rank)
  bcast_S32768x4x1_S32768x4x3_0_1_2 : S32768x4x1.BroadcastsInDim S32768x4x3 (![0, 1, 2] : Fin 3 → Fin S32768x4x3.rank)
  slices_S32768x4x3_S32768x4x1_0_0_0 : S32768x4x3.Slices ![0, 0, 0] S32768x4x1
  shapeCasts_S32768x4x1_S32768x4 : S32768x4x1.ShapeCasts S32768x4
  reducesTo_S32768x4_S_d0_1 : S32768x4.ReducesTo [0, 1] S_
  dot_S32768x4x256_S32768x4x256_S32768x4x4_2_2_1_1_0_0_wf : DotDims.WF S32768x4x256 S32768x4x256 S32768x4x4 [2] [2] [1] [1] [0] [0]
  gather_S32768x4x4_S4x2x1_S32768x4x2_0_2_1_0_2_2_3276811_wf : GatherDims.WF S32768x4x4 S4x2x1 S32768x4x2 [0] [2] [1] [2] [0] 2 ![32768, 1, 1]

variable [Facts₀]

def dot_S32768x4x256_S32768x4x256_S32768x4x4_2_2_1_1_0_0 : DotDims S32768x4x256 S32768x4x256 S32768x4x4 where
  lhsContracting := [2]
  rhsContracting := [2]
  lhsNonContracting := [1]
  rhsNonContracting := [1]
  lhsBatch := [0]
  rhsBatch := [0]
  wf := dot_S32768x4x256_S32768x4x256_S32768x4x4_2_2_1_1_0_0_wf
def gather_S32768x4x4_S4x2x1_S32768x4x2_0_2_1_0_2_2_3276811 : GatherDims S32768x4x4 S4x2x1 S32768x4x2 where
  offsetDims := [0]
  collapsedSliceDims := [2]
  operandBatchingDims := [1]
  startIndicesBatchingDims := [0]
  startIndexMap := [2]
  indexVectorDim := 2
  sliceSizes := ![32768, 1, 1]
  wf := gather_S32768x4x4_S4x2x1_S32768x4x2_0_2_1_0_2_2_3276811_wf

class Facts : Prop extends Facts₀ where

variable [Facts]
-- ==== Proof.BodyK.lean ====
/-
  The kernel body at every grid step, and with it the run of the whole program.

  The grid is 2 × 16, walked in order; step `t` is block `t` of both inputs, and the output block is the half
  `t / 16`. At the first step of a half (`t % 16 = 0`) the body stores its contribution into the output's staging
  block; at every later step it loads the block, adds its contribution and stores the sum; the block is written
  back to the output array after the half's last step. So after step `t` the staging block holds what the body's
  stores leave over what step `t - 1` left (`carried`, by recursion on the step), both inputs' staging blocks are
  left as they were found, and the pipeline's run ends with the argument arrays unchanged.
-/
import proofs.«136156_j6227702579662_1_alg».proof.Proof.Gen.Kernel.Frame
import proofs.«136156_j6227702579662_1_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches over the grid -/

/-- The first branch (store the contribution) is taken exactly at the first step of a half, -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)
/-- the second (add the contribution to the block) exactly at the other steps. -/
theorem later_iff : ∀ t : Fin cfg0.N, k0_cond2 (grid0.coords t) = 1#1 ↔ ¬t.val % 16 = 0 :=
  (by decide +kernel : ∀ t : Fin grid0.N, k0_cond2 (grid0.coords t) = 1#1 ↔ ¬t.val % 16 = 0)

/-- One of the two stores happens whatever the second coordinate is: it is zero or it is not. So the output
    window is never idle. -/
theorem live_out (i : grid0.Coords) : cfg0.idle (2 : Fin 3) i = false := by
  show (!(k0_cond1 i == 1#1) && !(k0_cond2 i == 1#1)) = false
  unfold k0_cond1 k0_cond2
  dsimp only
  generalize BitVec.ofNat 32 (i 1).val = x
  by_cases hx : x = 0#32
  · subst hx; decide
  · have h1 : (x != 0#32) = true := by simpa using hx
    simp [Scalar.cmpi, IntOp.cmpi, Scalar.extui, h1]

/-- The same, at the printed table of idle points. -/
theorem live_out_printed (i : grid0.Coords) : idle0 2 i = false := live_out i

/-! ## The body on any staging memrefs -/

/-- One staging buffer of the output window, through which its contents are stated. -/
abbrev outView : View sig .tc .vmem S8x128 .f32 := (Memref.whole cc0_stg2_0 : Memref sig .tc .vmem S8x128 .f32).view

/-- Each window's current staging memref at step `t`, and its wholeness. -/
abbrev mzi (t : Fin cfg0.N) : Memref sig .tc .vmem S1024x2x256 .f32 := win0_0.stage (cfg0.slots t 0)
abbrev hzi (t : Fin cfg0.N) : (mzi t).IsWhole := hstage0_0 ((cfg0.slots t 0).cast nbuf0_0)
abbrev mzj (t : Fin cfg0.N) : Memref sig .tc .vmem S1024x2x256 .f32 := win0_1.stage (cfg0.slots t 1)
abbrev hzj (t : Fin cfg0.N) : (mzj t).IsWhole := hstage0_1 ((cfg0.slots t 1).cast nbuf0_1)
abbrev mout (t : Fin cfg0.N) : Memref sig .tc .vmem S8x128 .f32 := win0_2.stage (cfg0.slots t 2)
abbrev hout (t : Fin cfg0.N) : (mout t).IsWhole := hstage0_2 ((cfg0.slots t 2).cast nbuf0_2)

set_option maxHeartbeats 1000000 in
/-- A FIRST step: from the inputs' memrefs at blocks `x0`, `x1` and the output's at anything, the body runs to the
    continuation holding the inputs' as they were and the output's with the pieces its store wrote (found by the run). -/
noncomputable def runFirst (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : k0_cond1 i = 1#1) (h2 : ¬k0_cond2 i = 1#1) (x0 x1 : Vec F S1024x2x256 .f32) :
    { L : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__loss_kernel i arg2 harg2 arg3 harg3 arg4 harg4) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A LATER step: the same, the output's memref at the running block `acc`. -/
noncomputable def runLater (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : ¬k0_cond1 i = 1#1) (h2 : k0_cond2 i = 1#1) (x0 x1 : Vec F S1024x2x256 .f32) (acc : Vec F S8x128 .f32) :
    { L : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__loss_kernel i arg2 harg2 arg3 harg3 arg4 harg4) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- The one store of a first step is the whole block, so its pieces cover it. -/
theorem coverFirst (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : k0_cond1 i = 1#1) (h2 : ¬k0_cond2 i = 1#1) (x0 x1 : Vec F S1024x2x256 .f32) (y : S8x128.Idx) :
    ∃ pc ∈ (runFirst c i arg2 harg2 arg3 harg3 arg4 harg4 h1 h2 x0 x1).1, y ∈ pc.1.set :=
  View.cover_of_tiledL (runFirst c i arg2 harg2 arg3 harg3 arg4 harg4 h1 h2 x0 x1).1 S8x128.size (by sl_kernel_rfl) y

/-- What a first step leaves in the output's staging block. -/
def outFirst (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : k0_cond1 i = 1#1) (h2 : ¬k0_cond2 i = 1#1) (x0 x1 : Vec F S1024x2x256 .f32) : Vec F S8x128 .f32 :=
  outView.read (Elt F) (outView.writes (Elt F) outView.junk (runFirst c i arg2 harg2 arg3 harg3 arg4 harg4 h1 h2 x0 x1).1)

/-- The one store of a later step is the whole block too. -/
theorem coverLater (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : ¬k0_cond1 i = 1#1) (h2 : k0_cond2 i = 1#1) (x0 x1 : Vec F S1024x2x256 .f32) (acc : Vec F S8x128 .f32) (y : S8x128.Idx) :
    ∃ pc ∈ (runLater c i arg2 harg2 arg3 harg3 arg4 harg4 h1 h2 x0 x1 acc).1, y ∈ pc.1.set :=
  View.cover_of_tiledL (runLater c i arg2 harg2 arg3 harg3 arg4 harg4 h1 h2 x0 x1 acc).1 S8x128.size (by sl_kernel_rfl) y

/-- What a later step leaves in the output's staging block, over the running block `acc`. -/
def outLater (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : ¬k0_cond1 i = 1#1) (h2 : k0_cond2 i = 1#1) (x0 x1 : Vec F S1024x2x256 .f32) (acc : Vec F S8x128 .f32) : Vec F S8x128 .f32 :=
  outView.read (Elt F) (outView.writes (Elt F) outView.junk (runLater c i arg2 harg2 arg3 harg3 arg4 harg4 h1 h2 x0 x1 acc).1)

/-! ## What the output's staging block holds after each step -/

/-- The running block after step `n`: a first step's store, or a later step's over what step `n - 1` left. -/
def carried (c : Dev nD) : (n : ℕ) → n < cfg0.N → Vec F S8x128 .f32
  | 0, hn => outFirst c (grid0.coords ⟨0, hn⟩) (mzi ⟨0, hn⟩) (hzi ⟨0, hn⟩) (mzj ⟨0, hn⟩) (hzj ⟨0, hn⟩) (mout ⟨0, hn⟩) (hout ⟨0, hn⟩)
      ((first_iff ⟨0, hn⟩).mpr (Nat.zero_mod _)) (fun h => (later_iff ⟨0, hn⟩).mp h (Nat.zero_mod _)) (iblk m c 0 ⟨0, hn⟩) (iblk m c 1 ⟨0, hn⟩)
  | n + 1, hn =>
    if h0 : (n + 1) % 16 = 0 then
      outFirst c (grid0.coords ⟨n + 1, hn⟩) (mzi ⟨n + 1, hn⟩) (hzi ⟨n + 1, hn⟩) (mzj ⟨n + 1, hn⟩) (hzj ⟨n + 1, hn⟩) (mout ⟨n + 1, hn⟩) (hout ⟨n + 1, hn⟩)
        ((first_iff ⟨n + 1, hn⟩).mpr h0) (fun h => (later_iff ⟨n + 1, hn⟩).mp h h0) (iblk m c 0 ⟨n + 1, hn⟩) (iblk m c 1 ⟨n + 1, hn⟩)
    else
      outLater c (grid0.coords ⟨n + 1, hn⟩) (mzi ⟨n + 1, hn⟩) (hzi ⟨n + 1, hn⟩) (mzj ⟨n + 1, hn⟩) (hzj ⟨n + 1, hn⟩) (mout ⟨n + 1, hn⟩) (hout ⟨n + 1, hn⟩)
        (fun h => h0 ((first_iff ⟨n + 1, hn⟩).mp h)) ((later_iff ⟨n + 1, hn⟩).mpr h0) (iblk m c 0 ⟨n + 1, hn⟩) (iblk m c 1 ⟨n + 1, hn⟩)
        (carried c n (Nat.lt_of_succ_lt hn))

/-- `carried` at a first step. -/
theorem carried_first (c : Dev nD) (t : Fin cfg0.N) (h0 : t.val % 16 = 0) :
    carried m c t.val t.isLt = outFirst c (grid0.coords t) (mzi t) (hzi t) (mzj t) (hzj t) (mout t) (hout t)
      ((first_iff t).mpr h0) (fun h => (later_iff t).mp h h0) (iblk m c 0 t) (iblk m c 1 t) := by
  obtain ⟨n, hn⟩ := t
  cases n with
  | zero => exact rfl
  | succ n => exact (dif_pos h0).trans rfl

/-- `carried` at a later step: over what the step before left. -/
theorem carried_later (c : Dev nD) (t : Fin cfg0.N) (h0 : ¬t.val % 16 = 0) :
    carried m c t.val t.isLt = outLater c (grid0.coords t) (mzi t) (hzi t) (mzj t) (hzj t) (mout t) (hout t)
      (fun h => h0 ((first_iff t).mp h)) ((later_iff t).mpr h0) (iblk m c 0 t) (iblk m c 1 t)
      (carried m c (t.val - 1) (Nat.lt_of_le_of_lt (Nat.sub_le _ _) t.isLt)) := by
  obtain ⟨n, hn⟩ := t
  cases n with
  | zero => exact (by exfalso; exact h0 (Nat.zero_mod _))
  | succ n => exact (dif_neg h0).trans rfl

/-! ## The pipeline's proof data -/

/-- The arrays as the region finds them; after the body at step `t` each input's buffer at its block and the
    output's at `carried`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => carried m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_zi (c : Dev nD) (t : Fin cfg0.N) : (dats m 0 c).after 0 t = iblk m c 0 t := by dsimp only [dats]
theorem after_zj (c : Dev nD) (t : Fin cfg0.N) : (dats m 0 c).after 1 t = iblk m c 1 t := by dsimp only [dats]
theorem after_out (c : Dev nD) (t : Fin cfg0.N) : (dats m 0 c).after 2 t = carried m c t.val t.isLt := by dsimp only [dats]

/-- Each input's current staging buffer holds its block at every step. -/
theorem before_zi (c : Dev nD) (t : Fin cfg0.N) (d) : (dats m 0 c).before 0 t d = iblk m c 0 t :=
  before0_0_of m (dats m 0 c) (A_eq m c 0) (after_zi m c) t d
theorem before_zj (c : Dev nD) (t : Fin cfg0.N) (d) : (dats m 0 c).before 1 t d = iblk m c 1 t :=
  before0_1_of m (dats m 0 c) (A_eq m c 1) (after_zj m c) t d

/-- At a later step the output's staging buffer holds what the step before left: that step did not write the
    block back (the write-back is after a half's last step), and the window is live and uncut. -/
theorem before_out_later (c : Dev nD) (t : Fin cfg0.N) (h0 : ¬t.val % 16 = 0) (d) :
    (dats m 0 c).before 2 t d = carried m c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun i => live_out i) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mzi t) fullShare ((dats m 0 c).before 0 t d))
    ∗ (∃ d, owns (c : Thread nD τ) (mzj t) fullShare ((dats m 0 c).before 1 t d))
    ∗ (∃ d, owns (c : Thread nD τ) (mout t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (mzi t) fullShare ((dats m 0 c).after 0 t)
    ∗ owns (c : Thread nD τ) (mzj t) fullShare ((dats m 0 c).after 1 t)
    ∗ owns (c : Thread nD τ) (mout t) fullShare ((dats m 0 c).after 2 t))

set_option maxHeartbeats 800000 in
/-- The body at any step: the inputs' memrefs hold their blocks; the step is a half's first or not; at a later step
    the output's memref holds what the step before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_zi, before_zj]
  rw [show (dats m 0 c).Φ t.succ = (dats m 0 c).Φ t.castSucc from rfl,
    show (dats m 0 c).owesAt () t.succ = (dats m 0 c).owesAt () t.castSucc from rfl,
    after_zi, after_zj, after_out]
  by_cases h0 : t.val % 16 = 0
  · rw [carried_first m c t h0]
    unfold outFirst
    iintro ⟨HΦ, Ho, ⟨%d0, H0⟩, ⟨%d1, H1⟩, ⟨%d2, H2⟩⟩
    iapply ((runFirst c (grid0.coords t) _ _ _ _ _ _ ((first_iff t).mpr h0) (fun h => (later_iff t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _)
  · rw [carried_later m c t h0]
    simp only [before_out_later m c t h0]
    unfold outLater
    iintro ⟨HΦ, Ho, ⟨%d0, H0⟩, ⟨%d1, H1⟩, ⟨%d2, H2⟩⟩
    iapply ((runLater c (grid0.coords t) _ _ _ _ _ _ (fun h => h0 ((first_iff t).mp h)) ((later_iff t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _ _)

set_option maxHeartbeats 800000 in
/-- The library's body obligation, at every step: the output window is live there, so the obligation's post at it
    is the block the body leaves. -/
theorem body_obligation (c : Dev nD) : BodyObligation (dats (F := F) m 0 c) (defs₀ (F := F)) Variants.none () Set.univ := fun t => by
  rw [bigSep_W0, bigSep_W0]
  have hl : cfg0.idle (2 : Fin 3) (cfg0.grid.coords t) = false := live_out _
  rw [hl]
  exact sound_body m c t

/-! ## The run and the frame -/

set_option backward.isDefEq.respectTransparency.types false in
/-- Every weakly fair execution of @main terminates, every array of the pipeline ending at what the library computes
    from the proof data and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.BodyKI.lean ====
/-
  The kernel body at every grid step, and with it the run of the whole program.

  The grid is 2 × 16, walked in order; step `t` is block `t` of both inputs, and the output block is the half
  `t / 16`. At the first step of a half (`t % 16 = 0`) the body stores its contribution into the output's staging
  block; at every later step it loads the block, adds its contribution and stores the sum; the block is written
  back to the output array after the half's last step. So after step `t` the staging block holds what the body's
  stores leave over what step `t - 1` left (`carried`, by recursion on the step), both inputs' staging blocks are
  left as they were found, and the pipeline's run ends with the argument arrays unchanged.
-/
import proofs.«136156_j6227702579662_1_alg».proof.Proof.Gen.KernelIdeal.Frame
import proofs.«136156_j6227702579662_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches over the grid -/

/-- The first branch (store the contribution) is taken exactly at the first step of a half, -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)
/-- the second (add the contribution to the block) exactly at the other steps. -/
theorem later_iff : ∀ t : Fin cfg0.N, k0_cond2 (grid0.coords t) = 1#1 ↔ ¬t.val % 16 = 0 :=
  (by decide +kernel : ∀ t : Fin grid0.N, k0_cond2 (grid0.coords t) = 1#1 ↔ ¬t.val % 16 = 0)

/-- One of the two stores happens whatever the second coordinate is: it is zero or it is not. So the output
    window is never idle. -/
theorem live_out (i : grid0.Coords) : cfg0.idle (2 : Fin 3) i = false := by
  show (!(k0_cond1 i == 1#1) && !(k0_cond2 i == 1#1)) = false
  unfold k0_cond1 k0_cond2
  dsimp only
  generalize BitVec.ofNat 32 (i 1).val = x
  by_cases hx : x = 0#32
  · subst hx; decide
  · have h1 : (x != 0#32) = true := by simpa using hx
    simp [Scalar.cmpi, IntOp.cmpi, Scalar.extui, h1]

/-- The same, at the printed table of idle points. -/
theorem live_out_printed (i : grid0.Coords) : idle0 2 i = false := live_out i

/-! ## The body on any staging memrefs -/

/-- One staging buffer of the output window, through which its contents are stated. -/
abbrev outView : View sig .tc .vmem S8x128 .f32 := (Memref.whole cc0_stg2_0 : Memref sig .tc .vmem S8x128 .f32).view

/-- Each window's current staging memref at step `t`, and its wholeness. -/
abbrev mzi (t : Fin cfg0.N) : Memref sig .tc .vmem S1024x2x256 .f32 := win0_0.stage (cfg0.slots t 0)
abbrev hzi (t : Fin cfg0.N) : (mzi t).IsWhole := hstage0_0 ((cfg0.slots t 0).cast nbuf0_0)
abbrev mzj (t : Fin cfg0.N) : Memref sig .tc .vmem S1024x2x256 .f32 := win0_1.stage (cfg0.slots t 1)
abbrev hzj (t : Fin cfg0.N) : (mzj t).IsWhole := hstage0_1 ((cfg0.slots t 1).cast nbuf0_1)
abbrev mout (t : Fin cfg0.N) : Memref sig .tc .vmem S8x128 .f32 := win0_2.stage (cfg0.slots t 2)
abbrev hout (t : Fin cfg0.N) : (mout t).IsWhole := hstage0_2 ((cfg0.slots t 2).cast nbuf0_2)

set_option maxHeartbeats 1000000 in
/-- A FIRST step: from the inputs' memrefs at blocks `x0`, `x1` and the output's at anything, the body runs to the
    continuation holding the inputs' as they were and the output's with the pieces its store wrote (found by the run). -/
noncomputable def runFirst (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : k0_cond1 i = 1#1) (h2 : ¬k0_cond2 i = 1#1) (x0 x1 : Vec F S1024x2x256 .f32) :
    { L : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__loss_kernel i arg2 harg2 arg3 harg3 arg4 harg4) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A LATER step: the same, the output's memref at the running block `acc`. -/
noncomputable def runLater (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : ¬k0_cond1 i = 1#1) (h2 : k0_cond2 i = 1#1) (x0 x1 : Vec F S1024x2x256 .f32) (acc : Vec F S8x128 .f32) :
    { L : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__loss_kernel i arg2 harg2 arg3 harg3 arg4 harg4) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- The one store of a first step is the whole block, so its pieces cover it. -/
theorem coverFirst (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : k0_cond1 i = 1#1) (h2 : ¬k0_cond2 i = 1#1) (x0 x1 : Vec F S1024x2x256 .f32) (y : S8x128.Idx) :
    ∃ pc ∈ (runFirst c i arg2 harg2 arg3 harg3 arg4 harg4 h1 h2 x0 x1).1, y ∈ pc.1.set :=
  View.cover_of_tiledL (runFirst c i arg2 harg2 arg3 harg3 arg4 harg4 h1 h2 x0 x1).1 S8x128.size (by sl_kernel_rfl) y

/-- What a first step leaves in the output's staging block. -/
def outFirst (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : k0_cond1 i = 1#1) (h2 : ¬k0_cond2 i = 1#1) (x0 x1 : Vec F S1024x2x256 .f32) : Vec F S8x128 .f32 :=
  outView.read (Elt F) (outView.writes (Elt F) outView.junk (runFirst c i arg2 harg2 arg3 harg3 arg4 harg4 h1 h2 x0 x1).1)

/-- The one store of a later step is the whole block too. -/
theorem coverLater (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : ¬k0_cond1 i = 1#1) (h2 : k0_cond2 i = 1#1) (x0 x1 : Vec F S1024x2x256 .f32) (acc : Vec F S8x128 .f32) (y : S8x128.Idx) :
    ∃ pc ∈ (runLater c i arg2 harg2 arg3 harg3 arg4 harg4 h1 h2 x0 x1 acc).1, y ∈ pc.1.set :=
  View.cover_of_tiledL (runLater c i arg2 harg2 arg3 harg3 arg4 harg4 h1 h2 x0 x1 acc).1 S8x128.size (by sl_kernel_rfl) y

/-- What a later step leaves in the output's staging block, over the running block `acc`. -/
def outLater (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : ¬k0_cond1 i = 1#1) (h2 : k0_cond2 i = 1#1) (x0 x1 : Vec F S1024x2x256 .f32) (acc : Vec F S8x128 .f32) : Vec F S8x128 .f32 :=
  outView.read (Elt F) (outView.writes (Elt F) outView.junk (runLater c i arg2 harg2 arg3 harg3 arg4 harg4 h1 h2 x0 x1 acc).1)

/-! ## What the output's staging block holds after each step -/

/-- The running block after step `n`: a first step's store, or a later step's over what step `n - 1` left. -/
def carried (c : Dev nD) : (n : ℕ) → n < cfg0.N → Vec F S8x128 .f32
  | 0, hn => outFirst c (grid0.coords ⟨0, hn⟩) (mzi ⟨0, hn⟩) (hzi ⟨0, hn⟩) (mzj ⟨0, hn⟩) (hzj ⟨0, hn⟩) (mout ⟨0, hn⟩) (hout ⟨0, hn⟩)
      ((first_iff ⟨0, hn⟩).mpr (Nat.zero_mod _)) (fun h => (later_iff ⟨0, hn⟩).mp h (Nat.zero_mod _)) (iblk m c 0 ⟨0, hn⟩) (iblk m c 1 ⟨0, hn⟩)
  | n + 1, hn =>
    if h0 : (n + 1) % 16 = 0 then
      outFirst c (grid0.coords ⟨n + 1, hn⟩) (mzi ⟨n + 1, hn⟩) (hzi ⟨n + 1, hn⟩) (mzj ⟨n + 1, hn⟩) (hzj ⟨n + 1, hn⟩) (mout ⟨n + 1, hn⟩) (hout ⟨n + 1, hn⟩)
        ((first_iff ⟨n + 1, hn⟩).mpr h0) (fun h => (later_iff ⟨n + 1, hn⟩).mp h h0) (iblk m c 0 ⟨n + 1, hn⟩) (iblk m c 1 ⟨n + 1, hn⟩)
    else
      outLater c (grid0.coords ⟨n + 1, hn⟩) (mzi ⟨n + 1, hn⟩) (hzi ⟨n + 1, hn⟩) (mzj ⟨n + 1, hn⟩) (hzj ⟨n + 1, hn⟩) (mout ⟨n + 1, hn⟩) (hout ⟨n + 1, hn⟩)
        (fun h => h0 ((first_iff ⟨n + 1, hn⟩).mp h)) ((later_iff ⟨n + 1, hn⟩).mpr h0) (iblk m c 0 ⟨n + 1, hn⟩) (iblk m c 1 ⟨n + 1, hn⟩)
        (carried c n (Nat.lt_of_succ_lt hn))

/-- `carried` at a first step. -/
theorem carried_first (c : Dev nD) (t : Fin cfg0.N) (h0 : t.val % 16 = 0) :
    carried m c t.val t.isLt = outFirst c (grid0.coords t) (mzi t) (hzi t) (mzj t) (hzj t) (mout t) (hout t)
      ((first_iff t).mpr h0) (fun h => (later_iff t).mp h h0) (iblk m c 0 t) (iblk m c 1 t) := by
  obtain ⟨n, hn⟩ := t
  cases n with
  | zero => exact rfl
  | succ n => exact (dif_pos h0).trans rfl

/-- `carried` at a later step: over what the step before left. -/
theorem carried_later (c : Dev nD) (t : Fin cfg0.N) (h0 : ¬t.val % 16 = 0) :
    carried m c t.val t.isLt = outLater c (grid0.coords t) (mzi t) (hzi t) (mzj t) (hzj t) (mout t) (hout t)
      (fun h => h0 ((first_iff t).mp h)) ((later_iff t).mpr h0) (iblk m c 0 t) (iblk m c 1 t)
      (carried m c (t.val - 1) (Nat.lt_of_le_of_lt (Nat.sub_le _ _) t.isLt)) := by
  obtain ⟨n, hn⟩ := t
  cases n with
  | zero => exact (by exfalso; exact h0 (Nat.zero_mod _))
  | succ n => exact (dif_neg h0).trans rfl

/-! ## The pipeline's proof data -/

/-- The arrays as the region finds them; after the body at step `t` each input's buffer at its block and the
    output's at `carried`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => carried m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_zi (c : Dev nD) (t : Fin cfg0.N) : (dats m 0 c).after 0 t = iblk m c 0 t := by dsimp only [dats]
theorem after_zj (c : Dev nD) (t : Fin cfg0.N) : (dats m 0 c).after 1 t = iblk m c 1 t := by dsimp only [dats]
theorem after_out (c : Dev nD) (t : Fin cfg0.N) : (dats m 0 c).after 2 t = carried m c t.val t.isLt := by dsimp only [dats]

/-- Each input's current staging buffer holds its block at every step. -/
theorem before_zi (c : Dev nD) (t : Fin cfg0.N) (d) : (dats m 0 c).before 0 t d = iblk m c 0 t :=
  before0_0_of m (dats m 0 c) (A_eq m c 0) (after_zi m c) t d
theorem before_zj (c : Dev nD) (t : Fin cfg0.N) (d) : (dats m 0 c).before 1 t d = iblk m c 1 t :=
  before0_1_of m (dats m 0 c) (A_eq m c 1) (after_zj m c) t d

/-- At a later step the output's staging buffer holds what the step before left: that step did not write the
    block back (the write-back is after a half's last step), and the window is live and uncut. -/
theorem before_out_later (c : Dev nD) (t : Fin cfg0.N) (h0 : ¬t.val % 16 = 0) (d) :
    (dats m 0 c).before 2 t d = carried m c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun i => live_out i) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mzi t) fullShare ((dats m 0 c).before 0 t d))
    ∗ (∃ d, owns (c : Thread nD τ) (mzj t) fullShare ((dats m 0 c).before 1 t d))
    ∗ (∃ d, owns (c : Thread nD τ) (mout t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (mzi t) fullShare ((dats m 0 c).after 0 t)
    ∗ owns (c : Thread nD τ) (mzj t) fullShare ((dats m 0 c).after 1 t)
    ∗ owns (c : Thread nD τ) (mout t) fullShare ((dats m 0 c).after 2 t))

set_option maxHeartbeats 800000 in
/-- The body at any step: the inputs' memrefs hold their blocks; the step is a half's first or not; at a later step
    the output's memref holds what the step before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_zi, before_zj]
  rw [show (dats m 0 c).Φ t.succ = (dats m 0 c).Φ t.castSucc from rfl,
    show (dats m 0 c).owesAt () t.succ = (dats m 0 c).owesAt () t.castSucc from rfl,
    after_zi, after_zj, after_out]
  by_cases h0 : t.val % 16 = 0
  · rw [carried_first m c t h0]
    unfold outFirst
    iintro ⟨HΦ, Ho, ⟨%d0, H0⟩, ⟨%d1, H1⟩, ⟨%d2, H2⟩⟩
    iapply ((runFirst c (grid0.coords t) _ _ _ _ _ _ ((first_iff t).mpr h0) (fun h => (later_iff t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _)
  · rw [carried_later m c t h0]
    simp only [before_out_later m c t h0]
    unfold outLater
    iintro ⟨HΦ, Ho, ⟨%d0, H0⟩, ⟨%d1, H1⟩, ⟨%d2, H2⟩⟩
    iapply ((runLater c (grid0.coords t) _ _ _ _ _ _ (fun h => h0 ((first_iff t).mp h)) ((later_iff t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _ _)

set_option maxHeartbeats 800000 in
/-- The library's body obligation, at every step: the output window is live there, so the obligation's post at it
    is the block the body leaves. -/
theorem body_obligation (c : Dev nD) : BodyObligation (dats (F := F) m 0 c) (defs₀ (F := F)) Variants.none () Set.univ := fun t => by
  rw [bigSep_W0, bigSep_W0]
  have hl : cfg0.idle (2 : Fin 3) (cfg0.grid.coords t) = false := live_out _
  rw [hl]
  exact sound_body m c t

/-! ## The run and the frame -/

set_option backward.isDefEq.respectTransparency.types false in
/-- Every weakly fair execution of @main terminates, every array of the pipeline ending at what the library computes
    from the proof data and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KTerm.lean ====
/-
  What one grid step of the kernel computes from the two blocks it loads — 1024 chunks' rows of `zi` (`x0`) and of
  `zj` (`x1`) — up to the 8 × 128 block it stores or adds: the four rows normalized, the six similarities, the four
  cross entropies, each summed over the block's chunks, the four sums added and broadcast. It is the composition
  of the body's printed payloads in the order the body's three parts hand them on.
-/
import proofs.«136156_j6227702579662_1_alg».proof.Proof.Gen.KernelIdeal.Skeleton

noncomputable section

namespace Cert.KernelIdeal.Hand

open Cert.KernelIdeal Cert.KernelIdeal.Gen Idealize.ShloMosaic

variable {F : FTy → Type} [FloatOps F]

/-- The step's contribution, broadcast over the output block. -/
def kcontrib (x0 x1 : Vec F S1024x2x256 .f32) : FVec F S8x128 .f32 :=
  k0_pay1
    (k0_pay22 (k0_pay11 (k0_pay5 x1) (k0_pay8 x0)) (k0_pay13 (k0_pay6 x1) (k0_pay8 x0)) (k0_pay14 (k0_pay7 x0) (k0_pay8 x0)))
    (k0_pay23 (k0_pay15 (k0_pay5 x1) (k0_pay6 x1) (k0_pay7 x0) (k0_pay8 x0)))
    (k0_pay24 (k0_pay16 (k0_pay6 x1) (k0_pay8 x0)) (k0_pay18 (k0_pay6 x1) (k0_pay7 x0))
      (k0_pay19 (k0_pay5 x1) (k0_pay6 x1) (k0_pay7 x0) (k0_pay8 x0)) (k0_pay20 (k0_pay5 x1) (k0_pay6 x1) (k0_pay7 x0) (k0_pay8 x0))
      (k0_pay21 (k0_pay5 x1) (k0_pay6 x1) (k0_pay7 x0) (k0_pay8 x0)))
    (k0_pay25 (k0_pay10 (k0_pay5 x1) (k0_pay7 x0)) (k0_pay12 (k0_pay6 x1) (k0_pay7 x0)) (k0_pay14 (k0_pay7 x0) (k0_pay8 x0)))

/-- What a later step leaves: what the output block held, plus the step's contribution. -/
def kaccum (x0 x1 : Vec F S1024x2x256 .f32) (acc : Vec F S8x128 .f32) : FVec F S8x128 .f32 :=
  k0_pay2
    (k0_pay22 (k0_pay11 (k0_pay5 x1) (k0_pay8 x0)) (k0_pay13 (k0_pay6 x1) (k0_pay8 x0)) (k0_pay14 (k0_pay7 x0) (k0_pay8 x0)))
    (k0_pay23 (k0_pay15 (k0_pay5 x1) (k0_pay6 x1) (k0_pay7 x0) (k0_pay8 x0)))
    (k0_pay24 (k0_pay16 (k0_pay6 x1) (k0_pay8 x0)) (k0_pay18 (k0_pay6 x1) (k0_pay7 x0))
      (k0_pay19 (k0_pay5 x1) (k0_pay6 x1) (k0_pay7 x0) (k0_pay8 x0)) (k0_pay20 (k0_pay5 x1) (k0_pay6 x1) (k0_pay7 x0) (k0_pay8 x0))
      (k0_pay21 (k0_pay5 x1) (k0_pay6 x1) (k0_pay7 x0) (k0_pay8 x0)))
    (k0_pay25 (k0_pay10 (k0_pay5 x1) (k0_pay7 x0)) (k0_pay12 (k0_pay6 x1) (k0_pay7 x0)) (k0_pay14 (k0_pay7 x0) (k0_pay8 x0)))
    acc

end Cert.KernelIdeal.Hand

end
-- ==== Proof.Spec.lean ====
/-
  The mathematics both programs compute, over the extended reals.

  A chunk is four rows of 256 numbers: the two rows of `zj` followed by the two rows of `zi`.
  Each row is divided by its Euclidean norm (clamped below by a small positive constant); the six pairwise
  dot products of the normalized rows are the cosine similarities. Row `c` of a chunk has one positive partner
  (row `c ± 2`) and two negatives (the two rows of the other parity); its loss is the cross entropy of the
  positive against the three logits (similarities over the temperature 1/2). The result is the sum of all
  4 · 32768 losses divided by 65536.

  The kernel forms the cross entropy as `(m + log Σ exp(xₖ - m)) - x₀` with `m` the largest logit, logits being
  similarities TIMES 2, and adds the losses up block by block (32 blocks of 1024 chunks, in two halves of 16
  blocks). The reference forms it as `-((x₀ - m) - log Σ exp(xₖ - m))`, logits being similarities DIVIDED BY 1/2,
  and adds all losses in one sum. `Kres` and `Rres` are those two closed forms.
-/
import Idealize.ShloMosaic.PureOps.Ideal
import Idealize.ShloMosaic.Lib.ValueIdx

noncomputable section

namespace Cert.Spec

open Idealize.ShloMosaic

/-- The clamp under the norm, the kernel's factor 2, the reference's divisor 1/2 and the final divisor 65536: the
    f32 words both programs carry. -/
abbrev eps : EReal := Ideal.ofBits .f32 0x322BCC77#32
abbrev two : EReal := Ideal.ofBits .f32 0x40000000#32
abbrev half : EReal := Ideal.ofBits .f32 0x3F000000#32
abbrev big : EReal := Ideal.ofBits .f32 0x47800000#32

/-! ## One chunk -/

section Chunk

variable (Y : Fin 4 → Fin 256 → EReal)

/-- The clamped norm of row `c`. -/
def nrm (c : Fin 4) : EReal := max (Ideal.sqrt (∑ d : Fin 256, Y c d * Y c d)) eps

/-- Row `c` normalized. -/
def unit (c : Fin 4) (d : Fin 256) : EReal := Ideal.div (Y c d) (nrm Y c)

/-- The cosine similarity of rows `c` and `k`. -/
def sim (c k : Fin 4) : EReal := ∑ d : Fin 256, unit Y c d * unit Y k d

/-- The kernel's cross entropy of logit `a` against `a`, `b`, `c`. -/
def ce (a b c : EReal) : EReal :=
  (max (max a b) c + Ideal.log (Ideal.exp (a - max (max a b) c) + Ideal.exp (b - max (max a b) c) + Ideal.exp (c - max (max a b) c))) - a

/-- The kernel's loss of each of the four rows. -/
def lossK : Fin 4 → EReal
  | 0 => ce (sim Y 0 2 * two) (sim Y 0 1 * two) (sim Y 0 3 * two)
  | 1 => ce (sim Y 1 3 * two) (sim Y 0 1 * two) (sim Y 1 2 * two)
  | 2 => ce (sim Y 0 2 * two) (sim Y 1 2 * two) (sim Y 2 3 * two)
  | 3 => ce (sim Y 1 3 * two) (sim Y 0 3 * two) (sim Y 2 3 * two)

/-- The reference's positive partner and its two negatives, by row. -/
def pos : Fin 4 → Fin 4 | 0 => 2 | 1 => 3 | 2 => 0 | 3 => 1
def neg0 : Fin 4 → Fin 4 | 0 => 1 | 1 => 0 | 2 => 1 | 3 => 0
def neg1 : Fin 4 → Fin 4 | 0 => 3 | 1 => 2 | 2 => 3 | 3 => 2

/-- The reference's three logits of row `c`: positive first. -/
def logit (c : Fin 4) : Fin 3 → EReal
  | 0 => Ideal.div (sim Y c (pos c)) half
  | 1 => Ideal.div (sim Y c (neg0 c)) half
  | 2 => Ideal.div (sim Y c (neg1 c)) half

/-- The largest of the three logits. -/
def top (c : Fin 4) : EReal := max (max (logit Y c 0) (logit Y c 1)) (logit Y c 2)

/-- The reference's loss of row `c`: minus the log-softmax's first entry. -/
def lossR (c : Fin 4) : EReal :=
  -((logit Y c 0 - top Y c)
      - Ideal.log (Ideal.exp (logit Y c 0 - top Y c) + Ideal.exp (logit Y c 1 - top Y c) + Ideal.exp (logit Y c 2 - top Y c)))

end Chunk

/-! ## A block of 1024 chunks, and the whole batch -/

/-- What one grid step of the kernel adds: the four row losses, each summed over the block's chunks. -/
def contribBlk (B : Fin 1024 → Fin 4 → Fin 256 → EReal) : EReal :=
  (∑ r : Fin 1024, lossK (B r) 0) + (∑ r : Fin 1024, lossK (B r) 1) + (∑ r : Fin 1024, lossK (B r) 2) + (∑ r : Fin 1024, lossK (B r) 3)

variable (X : Fin 32768 → Fin 4 → Fin 256 → EReal)

/-- Block `t` of the batch: chunks `1024 t … 1024 t + 1023`. -/
def blk (t : Fin 32) (r : Fin 1024) : Fin 4 → Fin 256 → EReal :=
  X ⟨t.val * 1024 + r.val, by have := t.isLt; have := r.isLt; omega⟩

/-- The kernel's result: the two halves' sixteen contributions each, added, over 65536. -/
def Kres : EReal :=
  Ideal.div ((∑ i : Fin 16, contribBlk (blk X ⟨i.val, by have := i.isLt; omega⟩))
    + (∑ i : Fin 16, contribBlk (blk X ⟨16 + i.val, by have := i.isLt; omega⟩))) big

/-- The reference's result: all losses added, over 65536. -/
def Rres : EReal := Ideal.div (∑ n : Fin 32768, ∑ c : Fin 4, lossR (X n) c) big

/-! ## The batch from the two argument arrays -/

/-- Chunk `n`'s four rows: rows `2n`, `2n + 1` of `zj`, then rows `2n`, `2n + 1` of `zi`. -/
def reps (zi zj : (⟨2, ![65536, 256]⟩ : Shape).Idx → EReal) (n : Fin 32768) (c : Fin 4) (d : Fin 256) : EReal :=
  if h : c.val < 2 then zj (ValueIdx.ix2 ⟨2 * n.val + c.val, by have := n.isLt; omega⟩ d)
  else zi (ValueIdx.ix2 ⟨2 * n.val + (c.val - 2), by have := n.isLt; have := c.isLt; omega⟩ d)

end Cert.Spec

end
-- ==== Proof.KPayload.lean ====
/-
  One grid step's contribution, read at the ideal instance: the block's chunks' four row losses, each summed over
  the block, added — the same number at every entry of the 8 × 128 block.
-/
import proofs.«136156_j6227702579662_1_alg».proof.Proof.KTerm
import proofs.«136156_j6227702579662_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic

/-- The chunks of a step's two loaded blocks: chunk `r`'s rows are `zj`'s block rows `(r, 0)`, `(r, 1)`, then `zi`'s. -/
def blockReps (x0 x1 : Vec Ideal S1024x2x256 .f32) (r : Fin 1024) (c : Fin 4) (d : Fin 256) : EReal :=
  if h : c.val < 2 then x1 (ValueIdx.ix3 r ⟨c.val, h⟩ d)
  else x0 (ValueIdx.ix3 r ⟨c.val - 2, by have := c.isLt; omega⟩ d)

open Idealize.ShloMosaic.ValueIdx

/-! ## The body's layout operations and sums at explicit coordinates -/

/-- Row `k` of every chunk of a loaded block: the block cast to its own shape, cut at offset `k` along the middle
    axis, and that axis dropped. At chunk `r`, lane `d`, it is the block at `(r, k, d)`. -/
theorem rawRow_apply (o : ℕ) (x : Vec Ideal S1024x2x256 .f32)
    (h0 : S1024x2x256.ShapeCasts S1024x2x256) (hs : S1024x2x256.Slices ![0, o, 0] S1024x1x256)
    (hc : S1024x1x256.ShapeCasts S1024x256) (r : Fin 1024) (d : Fin 256) (k : Fin 2) (hk : k.val = o) :
    shapeCast S1024x256 (extractStridedSlice S1024x1x256 ![0, o, 0] (shapeCast S1024x2x256 x h0) hs) hc (ix2 r d)
      = x (ix3 r k d) := by
  refine (shapeCast_apply _ hc (ix2 r d) (ix3 r (0 : Fin 1) d) ?_).trans ?_
  · rw [Shape.rowMajor_val_three, Shape.rowMajor_val_two]
    show (r.val * 1 + 0) * 256 + d.val = r.val * 256 + d.val
    omega
  · refine (slice3_axis1_apply o _ hs r (0 : Fin 1) d k (by show k.val = o + 0; omega)).trans ?_
    exact congrFun (shapeCast_self x h0) _

/-- The sum along the lanes of a 1024 × 256 array from the zero word, at chunk `r`: the sum of the row. -/
theorem laneSum_apply (src : FVec Ideal S1024x256 .f32) (h : S1024x256.Reduces [1] S1024) (hφ : FKind.Formats .f32)
    (hacc : (0x00000000#32 : BitVec (FTy.bits .f32)) = FKind.add.neutral .f32 hφ) (r : Fin 1024) :
    multiReduction (F := Ideal) .add [1] S1024 src 0x00000000#32 h hφ hacc (ix1 r) = ∑ k : Fin 256, src (ix2 r k) :=
  (Ideal.multiReduction_add_single src _ h hφ hacc (ix1 r)).trans
    (Finset.sum_congr rfl fun k _ => congrArg src
      (funext fun ax => Fin.ext (by match ax with | ⟨0, _⟩ => rfl | ⟨1, _⟩ => rfl)))

/-- The sum down the one column of a 1024 × 1 array from the zero word: the sum over the chunks. -/
theorem colSum_apply (src : FVec Ideal S1024x1 .f32) (h : S1024x1.Reduces [0] S1) (hφ : FKind.Formats .f32)
    (hacc : (0x00000000#32 : BitVec (FTy.bits .f32)) = FKind.add.neutral .f32 hφ) :
    multiReduction (F := Ideal) .add [0] S1 src 0x00000000#32 h hφ hacc (ix1 (0 : Fin 1))
      = ∑ r : Fin 1024, src (ix2 r (0 : Fin 1)) :=
  (Ideal.multiReduction_add_single src _ h hφ hacc (ix1 (0 : Fin 1))).trans
    (Finset.sum_congr rfl fun k _ => congrArg src
      (funext fun ax => Fin.ext (by match ax with | ⟨0, _⟩ => rfl | ⟨1, _⟩ => rfl)))

/-- A vector over the chunks as a column: at `(r, 0)`, the vector at `r`. -/
theorem column_apply {α : Type} (v : S1024.Idx → α) (h : S1024.ShapeCasts S1024x1) (r : Fin 1024) :
    shapeCast S1024x1 v h (ix2 r (0 : Fin 1)) = v (ix1 r) :=
  shapeCast_apply v h _ _ (by
    rw [Shape.rowMajor_val_one, Shape.rowMajor_val_two]
    show r.val = r.val * 1 + 0
    omega)

/-- A column over the chunks broadcast across the lanes: at `(r, d)`, the column at `(r, 0)`. -/
theorem lanes_apply {α : Type} (v : S1024x1.Idx → α) (h : S1024x1.Broadcasts S1024x256) (r : Fin 1024) (d : Fin 256) :
    broadcastTo S1024x256 v h (ix2 r d) = v (ix2 r (0 : Fin 1)) := by
  refine broadcastTo_apply v h (ix2 r d) (ix2 r (0 : Fin 1)) fun ax => ?_
  match ax with
  | ⟨0, _⟩ => rfl
  | ⟨1, _⟩ => rfl

/-- A one-entry vector as a 1 × 1 array: its one entry. -/
theorem unit_apply {α : Type} (v : S1.Idx → α) (h : S1.ShapeCasts S1x1) :
    shapeCast S1x1 v h (ix2 (0 : Fin 1) (0 : Fin 1)) = v (ix1 (0 : Fin 1)) :=
  shapeCast_apply v h _ _ (by
    rw [Shape.rowMajor_val_one, Shape.rowMajor_val_two]
    show (0 : ℕ) = 0 * 1 + 0
    omega)

/-- A 1 × 1 array broadcast over the 8 × 128 block: its one entry everywhere. -/
theorem block_apply {α : Type} (v : S1x1.Idx → α) (h : S1x1.Broadcasts S8x128) (a : Fin 8) (b : Fin 128) :
    broadcastTo S8x128 v h (ix2 a b) = v (ix2 (0 : Fin 1) (0 : Fin 1)) := by
  refine broadcastTo_apply v h (ix2 a b) (ix2 (0 : Fin 1) (0 : Fin 1)) fun ax => ?_
  match ax with
  | ⟨0, _⟩ => rfl
  | ⟨1, _⟩ => rfl

/-! ## The four rows, normalized -/

/-- A 1024 × 256 array with every row divided by its clamped Euclidean norm, as the body computes it. -/
def nrmRows (v : FVec Ideal S1024x256 .f32) (hr : S1024x256.Reduces [1] S1024) (hc : S1024.ShapeCasts S1024x1)
    (hb : S1024x1.Broadcasts S1024x256) : FVec Ideal S1024x256 .f32 :=
  divf v (broadcastTo S1024x256
    (maximumf (sqrt (shapeCast S1024x1 (multiReduction .add [1] S1024 (mulf v v) 0x00000000#32 hr (.inl rfl) rfl) hc))
      (broadcast S1024x1 (Scalar.ofBits .f32 0x322BCC77#32))) hb)

/-- At chunk `r`, lane `d`: the entry over the larger of the row's norm and the clamp. -/
theorem nrmRows_apply (v : FVec Ideal S1024x256 .f32) (hr : S1024x256.Reduces [1] S1024) (hc : S1024.ShapeCasts S1024x1)
    (hb : S1024x1.Broadcasts S1024x256) (r : Fin 1024) (d : Fin 256) :
    nrmRows v hr hc hb (ix2 r d)
      = Ideal.div (v (ix2 r d)) (max (Ideal.sqrt (∑ k : Fin 256, v (ix2 r k) * v (ix2 r k))) Cert.Spec.eps) := by
  unfold nrmRows
  refine congrArg (Ideal.div (v (ix2 r d))) ?_
  refine (lanes_apply _ hb r d).trans ?_
  refine congrArg (fun t => max (Ideal.sqrt t) Cert.Spec.eps) ?_
  refine (column_apply _ hc r).trans ?_
  exact laneSum_apply (mulf v v) hr _ _ r

/-- The four normalized rows of every chunk, in the specification's order: rows 0, 1 of the second block loaded
    (`zj`'s), then rows 0, 1 of the first (`zi`'s). -/
def rows (x0 x1 : Vec Ideal S1024x2x256 .f32) : Fin 4 → FVec Ideal S1024x256 .f32
  | 0 => k0_pay5 (F := Ideal) x1
  | 1 => k0_pay6 (F := Ideal) x1
  | 2 => k0_pay7 (F := Ideal) x0
  | 3 => k0_pay8 (F := Ideal) x0

/-- Row `c` of chunk `r` at lane `d` is the specification's normalized row of the chunk's four rows. -/
theorem rows_apply (x0 x1 : Vec Ideal S1024x2x256 .f32) (c : Fin 4) (r : Fin 1024) (d : Fin 256) :
    rows x0 x1 c (ix2 r d) = Cert.Spec.unit (blockReps x0 x1 r) c d := by
  have key : ∀ (x : Vec Ideal S1024x2x256 .f32) (o : ℕ) (k : Fin 2) (hk : k.val = o)
      (h0 : S1024x2x256.ShapeCasts S1024x2x256) (hs : S1024x2x256.Slices ![0, o, 0] S1024x1x256)
      (hc : S1024x1x256.ShapeCasts S1024x256) (hr : S1024x256.Reduces [1] S1024) (hc' : S1024.ShapeCasts S1024x1)
      (hb : S1024x1.Broadcasts S1024x256) (Y : Fin 256 → EReal) (hY : ∀ e, Y e = x (ix3 r k e)),
      nrmRows (shapeCast S1024x256 (extractStridedSlice S1024x1x256 ![0, o, 0] (shapeCast S1024x2x256 x h0) hs) hc)
          hr hc' hb (ix2 r d)
        = Ideal.div (Y d) (max (Ideal.sqrt (∑ e : Fin 256, Y e * Y e)) Cert.Spec.eps) := by
    intro x o k hk h0 hs hc hr hc' hb Y hY
    refine (nrmRows_apply _ hr hc' hb r d).trans ?_
    simp only [rawRow_apply o x h0 hs hc r _ k hk, hY]
  match c with
  | 0 => exact key x1 0 0 rfl _ _ _ _ _ _ _ (fun e => rfl)
  | 1 => exact key x1 1 1 rfl _ _ _ _ _ _ _ (fun e => rfl)
  | 2 => exact key x0 0 0 rfl _ _ _ _ _ _ _ (fun e => rfl)
  | 3 => exact key x0 1 1 rfl _ _ _ _ _ _ _ (fun e => rfl)

/-! ## The six similarities -/

/-- The similarity column of rows `c` and `k`: the lane sums of the products of the two normalized rows. -/
def sims (x0 x1 : Vec Ideal S1024x2x256 .f32) (c k : Fin 4) : FVec Ideal S1024x1 .f32 :=
  shapeCast S1024x1
    (multiReduction .add [1] S1024 (mulf (rows x0 x1 c) (rows x0 x1 k)) 0x00000000#32 reduces_S1024x256_S1024 (.inl rfl) rfl)
    shapeCasts_S1024_S1024x1

/-- At chunk `r` it is the specification's similarity of the chunk's rows `c` and `k`. -/
theorem sims_apply (x0 x1 : Vec Ideal S1024x2x256 .f32) (c k : Fin 4) (r : Fin 1024) :
    sims x0 x1 c k (ix2 r (0 : Fin 1)) = Cert.Spec.sim (blockReps x0 x1 r) c k := by
  unfold sims
  refine (column_apply _ _ r).trans ((laneSum_apply _ _ _ _ r).trans ?_)
  exact Finset.sum_congr rfl fun d _ =>
    congrArg₂ (· * ·) (rows_apply x0 x1 c r d) (rows_apply x0 x1 k r d)

/-! ## The four losses of a chunk -/

/-- The loss column of row 0 at chunk `r`. -/
theorem loss0_apply (x0 x1 : Vec Ideal S1024x2x256 .f32) (r : Fin 1024) :
    k0_pay15 (F := Ideal) (k0_pay5 x1) (k0_pay6 x1) (k0_pay7 x0) (k0_pay8 x0) (ix2 r (0 : Fin 1))
      = Cert.Spec.lossK (blockReps x0 x1 r) 0 := by
  show Cert.Spec.ce (sims x0 x1 0 2 (ix2 r (0 : Fin 1)) * Cert.Spec.two) (sims x0 x1 0 1 (ix2 r (0 : Fin 1)) * Cert.Spec.two)
      (sims x0 x1 0 3 (ix2 r (0 : Fin 1)) * Cert.Spec.two) = _
  rw [sims_apply, sims_apply, sims_apply]
  rfl

/-- The loss column of row 3 at chunk `r`. -/
theorem loss3_apply (x0 x1 : Vec Ideal S1024x2x256 .f32) (r : Fin 1024) :
    k0_pay22 (F := Ideal) (k0_pay11 (k0_pay5 x1) (k0_pay8 x0)) (k0_pay13 (k0_pay6 x1) (k0_pay8 x0))
        (k0_pay14 (k0_pay7 x0) (k0_pay8 x0)) (ix2 r (0 : Fin 1))
      = Cert.Spec.lossK (blockReps x0 x1 r) 3 := by
  show Cert.Spec.ce (sims x0 x1 1 3 (ix2 r (0 : Fin 1)) * Cert.Spec.two) (sims x0 x1 0 3 (ix2 r (0 : Fin 1)) * Cert.Spec.two)
      (sims x0 x1 2 3 (ix2 r (0 : Fin 1)) * Cert.Spec.two) = _
  rw [sims_apply, sims_apply, sims_apply]
  rfl

/-! ## The sums over the block's chunks -/

/-- Row 0's losses added over the block. -/
theorem sum0_apply (x0 x1 : Vec Ideal S1024x2x256 .f32) :
    k0_pay23 (F := Ideal) (k0_pay15 (k0_pay5 x1) (k0_pay6 x1) (k0_pay7 x0) (k0_pay8 x0)) (ix2 (0 : Fin 1) (0 : Fin 1))
      = ∑ r : Fin 1024, Cert.Spec.lossK (blockReps x0 x1 r) 0 := by
  unfold k0_pay23
  refine (unit_apply _ _).trans ((colSum_apply _ _ _ _).trans ?_)
  exact Finset.sum_congr rfl fun r _ => loss0_apply x0 x1 r

/-- Row 1's losses added over the block. -/
theorem sum1_apply (x0 x1 : Vec Ideal S1024x2x256 .f32) :
    k0_pay24 (F := Ideal) (k0_pay16 (k0_pay6 x1) (k0_pay8 x0)) (k0_pay18 (k0_pay6 x1) (k0_pay7 x0))
        (k0_pay19 (k0_pay5 x1) (k0_pay6 x1) (k0_pay7 x0) (k0_pay8 x0))
        (k0_pay20 (k0_pay5 x1) (k0_pay6 x1) (k0_pay7 x0) (k0_pay8 x0))
        (k0_pay21 (k0_pay5 x1) (k0_pay6 x1) (k0_pay7 x0) (k0_pay8 x0)) (ix2 (0 : Fin 1) (0 : Fin 1))
      = ∑ r : Fin 1024, Cert.Spec.lossK (blockReps x0 x1 r) 1 := by
  unfold k0_pay24
  refine (unit_apply _ _).trans ((colSum_apply _ _ _ _).trans ?_)
  refine Finset.sum_congr rfl fun r _ => ?_
  show Cert.Spec.ce (sims x0 x1 1 3 (ix2 r (0 : Fin 1)) * Cert.Spec.two) (sims x0 x1 0 1 (ix2 r (0 : Fin 1)) * Cert.Spec.two)
      (sims x0 x1 1 2 (ix2 r (0 : Fin 1)) * Cert.Spec.two) = _
  rw [sims_apply, sims_apply, sims_apply]
  rfl

/-- Row 2's losses added over the block. -/
theorem sum2_apply (x0 x1 : Vec Ideal S1024x2x256 .f32) :
    k0_pay25 (F := Ideal) (k0_pay10 (k0_pay5 x1) (k0_pay7 x0)) (k0_pay12 (k0_pay6 x1) (k0_pay7 x0))
        (k0_pay14 (k0_pay7 x0) (k0_pay8 x0)) (ix1 (0 : Fin 1))
      = ∑ r : Fin 1024, Cert.Spec.lossK (blockReps x0 x1 r) 2 := by
  unfold k0_pay25
  refine (colSum_apply _ _ _ _).trans ?_
  refine Finset.sum_congr rfl fun r _ => ?_
  show Cert.Spec.ce (sims x0 x1 0 2 (ix2 r (0 : Fin 1)) * Cert.Spec.two) (sims x0 x1 1 2 (ix2 r (0 : Fin 1)) * Cert.Spec.two)
      (sims x0 x1 2 3 (ix2 r (0 : Fin 1)) * Cert.Spec.two) = _
  rw [sims_apply, sims_apply, sims_apply]
  rfl

/-! ## The step's block -/

/-- The block the step stores, at any entry: the two 1 × 1 sums added, then the one-entry sum, then the last column's
    sum over the chunks. -/
theorem pay1_apply (v137 : FVec Ideal S1024x1 .f32) (v139 v141 : FVec Ideal S1x1 .f32) (v142 : FVec Ideal S1 .f32)
    (a : Fin 8) (b : Fin 128) :
    k0_pay1 (F := Ideal) v137 v139 v141 v142 (ix2 a b)
      = v139 (ix2 (0 : Fin 1) (0 : Fin 1)) + v141 (ix2 (0 : Fin 1) (0 : Fin 1)) + v142 (ix1 (0 : Fin 1))
        + ∑ r : Fin 1024, v137 (ix2 r (0 : Fin 1)) := by
  unfold k0_pay1
  refine (block_apply _ _ a b).trans ((congrFun (shapeCast_self _ _) _).trans ?_)
  exact congrArg₂ (· + ·) (congrArg₂ (· + ·) rfl (unit_apply v142 _))
    ((unit_apply _ _).trans (colSum_apply v137 _ _ _))

theorem kcontrib_eq (x0 x1 : Vec Ideal S1024x2x256 .f32) (y : S8x128.Idx) :
    kcontrib (F := Ideal) x0 x1 y = Cert.Spec.contribBlk (blockReps x0 x1) := by
  obtain ⟨a, b, rfl⟩ : ∃ (a : Fin 8) (b : Fin 128), y = ix2 a b := ⟨y 0, y 1, eq_ix2 y⟩
  unfold kcontrib
  refine (pay1_apply _ _ _ _ a b).trans ?_
  exact congrArg₂ (· + ·) (congrArg₂ (· + ·) (congrArg₂ (· + ·) (sum0_apply x0 x1) (sum1_apply x0 x1)) (sum2_apply x0 x1))
    (Finset.sum_congr rfl fun r _ => loss3_apply x0 x1 r)

theorem kaccum_eq (x0 x1 : Vec Ideal S1024x2x256 .f32) (acc : Vec Ideal S8x128 .f32) (y : S8x128.Idx) :
    kaccum (F := Ideal) x0 x1 acc y = acc y + Cert.Spec.contribBlk (blockReps x0 x1) := by
  unfold kaccum k0_pay2
  exact congrArg₂ (· + ·) (congrFun (shapeCast_self acc _) y) (kcontrib_eq x0 x1 y)

end Cert.KernelIdeal.Hand

end
-- ==== Proof.KValue.lean ====
/-
  What the kernel's run leaves in its result, at the ideal instance.

  A first step of a half leaves the step's contribution in the output's staging block and a later step adds its
  contribution to what the block held, so after step `t` every entry of the block is the sum of the contributions
  of the half's steps so far. The block is written back after the half's last step: rows 0–7 of the 16 × 128 output
  hold the first half's sum of sixteen contributions, rows 8–15 the second's. The host lines after the region take
  entries (0, 0) and (8, 0), add them and divide by 65536. A step's two input blocks are block `t` of the batch of
  chunks read off the two argument arrays, so the result is the kernel's closed form of that batch.
-/
import proofs.«136156_j6227702579662_1_alg».proof.Proof.BodyKI
import proofs.«136156_j6227702579662_1_alg».proof.Proof.KPayload
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Pieces

variable {F : FTy → Type} [FloatOps F]

variable (m : (ℓ : Loc nD τ sig) → Buf (Elt F) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- A first step leaves its contribution: its one store covers the block, and its loads read the whole input blocks. -/
theorem outFirst_eq (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : k0_cond1 i = 1#1) (h2 : ¬k0_cond2 i = 1#1) (x0 x1 : Vec F S1024x2x256 .f32) :
    outFirst c i arg2 harg2 arg3 harg3 arg4 harg4 h1 h2 x0 x1 = kcontrib x0 x1 := by
  unfold outFirst
  rw [View.read_writes_eq_canon _ _ _ (coverFirst c i arg2 harg2 arg3 harg3 arg4 harg4 h1 h2 x0 x1)]
  unfold runFirst
  dsimp only
  sl_unfold_words
  rw [View.canon_unit_zero zero2]
  unfold kcontrib
  simp only [View.readAt_eq_ld, harg2.read_unread, harg3.read_unread, View.ld_unit_zero (S := S1024x2x256) zero3]

/-- A later step leaves the block it found plus its contribution. -/
theorem outLater_eq (c : Dev nD) (i : grid0.Coords) (arg2 : Memref sig .tc .vmem S1024x2x256 .f32) (harg2 : arg2.IsWhole)
    (arg3 : Memref sig .tc .vmem S1024x2x256 .f32) (harg3 : arg3.IsWhole) (arg4 : Memref sig .tc .vmem S8x128 .f32) (harg4 : arg4.IsWhole)
    (h1 : ¬k0_cond1 i = 1#1) (h2 : k0_cond2 i = 1#1) (x0 x1 : Vec F S1024x2x256 .f32) (acc : Vec F S8x128 .f32) :
    outLater c i arg2 harg2 arg3 harg3 arg4 harg4 h1 h2 x0 x1 acc = kaccum x0 x1 acc := by
  unfold outLater
  rw [View.read_writes_eq_canon _ _ _ (coverLater c i arg2 harg2 arg3 harg3 arg4 harg4 h1 h2 x0 x1 acc)]
  unfold runLater
  dsimp only
  sl_unfold_words
  rw [View.canon_unit_zero zero2]
  unfold kaccum
  simp only [View.readAt_eq_ld, harg2.read_unread, harg3.read_unread, harg4.read_unread, View.ld_unit_zero (S := S1024x2x256) zero3,
    View.ld_unit_zero (S := S8x128) zero2]

/-- The running block after step `n`, as a plain recursion over the steps' contributions. -/
def running (c : Dev nD) : (n : ℕ) → n < cfg0.N → Vec F S8x128 .f32
  | 0, h => kcontrib (iblk m c 0 ⟨0, h⟩) (iblk m c 1 ⟨0, h⟩)
  | n + 1, h =>
    if (n + 1) % 16 = 0 then kcontrib (iblk m c 0 ⟨n + 1, h⟩) (iblk m c 1 ⟨n + 1, h⟩)
    else kaccum (iblk m c 0 ⟨n + 1, h⟩) (iblk m c 1 ⟨n + 1, h⟩) (running c n (Nat.lt_of_succ_lt h))

/-- What the output's staging block holds after step `n` is that recursion. -/
theorem carried_eq (c : Dev nD) : ∀ (n : ℕ) (h : n < cfg0.N), carried m c n h = running m c n h
  | 0, h => (carried_first m c ⟨0, h⟩ rfl).trans (outFirst_eq ..)
  | n + 1, h => by
    by_cases h0 : (n + 1) % 16 = 0
    · rw [carried_first m c ⟨n + 1, h⟩ h0, outFirst_eq]
      show _ = if (n + 1) % 16 = 0 then _ else _
      rw [if_pos h0]
    · rw [carried_later m c ⟨n + 1, h⟩ h0, outLater_eq]
      show kaccum _ _ (carried m c n _) = if (n + 1) % 16 = 0 then _ else _
      rw [if_neg h0, carried_eq c n]

end Pieces

section AtIdeal

variable (m : (ℓ : Loc nD τ sig) → Buf (Elt Ideal) ℓ) (ρ : Dev nD → PrngReg)

/-- Step `t`'s contribution (zero past the grid). -/
def stepContrib (c : Dev nD) (t : ℕ) : EReal :=
  if h : t < cfg0.N then Cert.Spec.contribBlk (blockReps (iblk m c 0 ⟨t, h⟩) (iblk m c 1 ⟨t, h⟩)) else 0

theorem stepContrib_of_lt (c : Dev nD) (t : ℕ) (h : t < cfg0.N) :
    stepContrib m c t = Cert.Spec.contribBlk (blockReps (iblk m c 0 ⟨t, h⟩) (iblk m c 1 ⟨t, h⟩)) := dif_pos h

/-- Every entry of the running block after step `n` is the sum of the contributions of the half's steps up to `n`. -/
theorem running_apply (c : Dev nD) : ∀ (n : ℕ) (h : n < cfg0.N) (y : S8x128.Idx),
    running m c n h y = ∑ j ∈ Finset.range (n % 16 + 1), stepContrib m c (16 * (n / 16) + j)
  | 0, h, y => by
    show kcontrib _ _ y = _
    rw [kcontrib_eq, show (0 % 16 + 1) = 1 from rfl, Finset.sum_range_one, stepContrib_of_lt m c _ h]
  | n + 1, h, y => by
    by_cases h0 : (n + 1) % 16 = 0
    · show (if (n + 1) % 16 = 0 then _ else _ : Vec Ideal S8x128 .f32) y = _
      rw [if_pos h0, kcontrib_eq, h0, Finset.sum_range_one, show 16 * ((n + 1) / 16) + 0 = n + 1 from by omega,
        stepContrib_of_lt m c _ h]
    · show (if (n + 1) % 16 = 0 then _ else _ : Vec Ideal S8x128 .f32) y = _
      rw [if_neg h0, kaccum_eq, running_apply c n _ y, show (n + 1) % 16 = n % 16 + 1 from by omega,
        show (n + 1) / 16 = n / 16 from by omega, Finset.sum_range_succ (n := n % 16 + 1),
        show 16 * (n / 16) + (n % 16 + 1) = n + 1 from by omega, stepContrib_of_lt m c _ h]

/-- The sum of half `h`'s sixteen contributions. -/
def halfSum (c : Dev nD) (h : ℕ) : EReal := ∑ j ∈ Finset.range 16, stepContrib m c (16 * h + j)

/-- The output array after the run: the first half's sum on rows 0–7, the second's on rows 8–15. -/
def outArr (c : Dev nD) : Vec Ideal S16x128 .f32 := fun i => if (i 0).val < 8 then halfSum m c 0 else halfSum m c 1

/-- The output's block index along the rows is the half. -/
theorem out_index0 : ∀ t : Fin cfg0.N, win0_2.index t 0 = t.val / 16 :=
  (by decide +kernel : ∀ t : Fin grid0.N, win0_2.index t 0 = t.val / 16)

/-- A half's last step writes the half's sum back into its eight rows. -/
theorem flushed_eq (c : Dev nD) (t : Fin cfg0.N) (hf : (cfg0.win 2).flush t = true) :
    (dats m 0 c).flushed 2 t = ((cfg0.win 2).blk t).view.read (Elt Ideal) (outArr m c) := by
  have hN : t.val < 32 := lt_of_lt_of_eq t.isLt (show cfg0.N = 32 from N_0)
  have h15 : t.val % 16 = 15 := (flush0_2 t).mp hf
  show (cfg0.win 2).cut (grid0.coords t) ((dats m 0 c).after 2 t) = _
  rw [after_out, carried_eq]
  funext y
  have hL : (cfg0.win 2).cut (grid0.coords t) (running m c t.val t.isLt) y = halfSum m c (t.val / 16) := by
    show running m c t.val t.isLt _ = _
    rw [running_apply, h15]
    rfl
  rw [hL]
  show _ = outArr m c (((cfg0.win 2).blk t).view.emb y)
  have hrow : ((((cfg0.win 2).blk t).view.emb y) 0).val = (t.val / 16) * 8 + (y 0).val := by
    show win0_2.index t 0 * 8 + 1 * (y 0).val = _
    rw [out_index0 t]; omega
  have hy : (y 0).val < 8 := (y 0).isLt
  unfold outArr
  rcases (show t.val / 16 = 0 ∨ t.val / 16 = 1 by omega) with h | h
  · rw [if_pos (by rw [hrow, h]; omega), h]
  · rw [if_neg (by rw [hrow, h]; omega), h]

/-- The two halves' last steps. -/
theorem lt15 : 15 < cfg0.N := by rw [show cfg0.N = 32 from N_0]; decide
theorem lt31 : 31 < cfg0.N := by rw [show cfg0.N = 32 from N_0]; decide
abbrev lastA : Fin cfg0.N := ⟨15, lt15⟩
abbrev lastB : Fin cfg0.N := ⟨31, lt31⟩

/-- The two write-backs cover the output array, so it ends at `outArr`. -/
theorem final_out (c : Dev nD) : (dats m 0 c).arrAt 2 cfg0.N = outArr m c :=
  (dats m 0 c).arrAt_eq_of_cover 2 (outArr m c) (flushed_eq m c) fun i => by
    have h0 : (i 0 : Nat) < 16 := (i 0).isLt
    have h1 : (i 1 : Nat) < 128 := (i 1).isLt
    have hN : cfg0.N = 32 := N_0
    by_cases hi : (i 0 : Nat) < 8
    · refine ⟨lastA, (flush0_2 _).mpr (by decide), ?_⟩
      show i ∈ ((View.whole main_v2).slice (win0_2.rect lastA)).set
      rw [View.set_slice_whole, Rect.mem_set_unit]
      intro a
      match a with
      | ⟨0, _⟩ =>
        show win0_2.index lastA 0 * win0_2.size 0 ≤ (i 0 : Nat) ∧ (i 0 : Nat) < win0_2.index lastA 0 * win0_2.size 0 + win0_2.xsize (grid0.coords lastA) 0
        rw [show win0_2.index lastA 0 * win0_2.size 0 = 0 from by decide +kernel, show win0_2.xsize (grid0.coords lastA) 0 = 8 from by decide +kernel]; omega
      | ⟨1, _⟩ =>
        show win0_2.index lastA 1 * win0_2.size 1 ≤ (i 1 : Nat) ∧ (i 1 : Nat) < win0_2.index lastA 1 * win0_2.size 1 + win0_2.xsize (grid0.coords lastA) 1
        rw [show win0_2.index lastA 1 * win0_2.size 1 = 0 from by decide +kernel, show win0_2.xsize (grid0.coords lastA) 1 = 128 from by decide +kernel]; omega
    · refine ⟨lastB, (flush0_2 _).mpr (by decide), ?_⟩
      show i ∈ ((View.whole main_v2).slice (win0_2.rect lastB)).set
      rw [View.set_slice_whole, Rect.mem_set_unit]
      intro a
      match a with
      | ⟨0, _⟩ =>
        show win0_2.index lastB 0 * win0_2.size 0 ≤ (i 0 : Nat) ∧ (i 0 : Nat) < win0_2.index lastB 0 * win0_2.size 0 + win0_2.xsize (grid0.coords lastB) 0
        rw [show win0_2.index lastB 0 * win0_2.size 0 = 8 from by decide +kernel, show win0_2.xsize (grid0.coords lastB) 0 = 8 from by decide +kernel]; omega
      | ⟨1, _⟩ =>
        show win0_2.index lastB 1 * win0_2.size 1 ≤ (i 1 : Nat) ∧ (i 1 : Nat) < win0_2.index lastB 1 * win0_2.size 1 + win0_2.xsize (grid0.coords lastB) 1
        rw [show win0_2.index lastB 1 * win0_2.size 1 = 0 from by decide +kernel, show win0_2.xsize (grid0.coords lastB) 1 = 128 from by decide +kernel]; omega

/-- An index of the 1 × 1 shape is (0, 0). -/
theorem idx11_val (j : S1x1.Idx) (a : Fin 2) : (j a).val = 0 := by
  match a with
  | ⟨0, _⟩ => exact Nat.lt_one_iff.mp (j 0).isLt
  | ⟨1, _⟩ => exact Nat.lt_one_iff.mp (j 1).isLt

/-- Entry (0, 0) of the output is the first half's sum, -/
theorem out_00 (c : Dev nD) (k : S1x1.Idx) :
    extractStridedSlice S1x1 ![0, 0] (outArr m c) slices_S16x128_S1x1_0_0 k = halfSum m c 0 := by
  rw [extractStridedSlice_apply ![0, 0] (outArr m c) slices_S16x128_S1x1_0_0 k (ValueIdx.ix2 ⟨0, by decide⟩ ⟨0, by decide⟩)
    (fun a => by
      match a with
      | ⟨0, _⟩ => show 0 = 0 + (k _).val; rw [idx11_val]
      | ⟨1, _⟩ => show 0 = 0 + (k _).val; rw [idx11_val])]
  exact if_pos (by decide)

/-- and entry (8, 0) the second's. -/
theorem out_80 (c : Dev nD) (k : S1x1.Idx) :
    extractStridedSlice S1x1 ![8, 0] (outArr m c) slices_S16x128_S1x1_8_0 k = halfSum m c 1 := by
  rw [extractStridedSlice_apply ![8, 0] (outArr m c) slices_S16x128_S1x1_8_0 k (ValueIdx.ix2 ⟨8, by decide⟩ ⟨0, by decide⟩)
    (fun a => by
      match a with
      | ⟨0, _⟩ => show 8 = 8 + (k _).val; rw [idx11_val]
      | ⟨1, _⟩ => show 0 = 0 + (k _).val; rw [idx11_val])]
  exact if_neg (by decide)

/-- The host lines after the region: entries (0, 0) and (8, 0) of the output, added, over 65536. -/
theorem tail_eq (c : Dev nD) :
    Pipeline.afterTail₀ cfgs (dats m) 0 (V0 m) [hostOps1] c main_v8 = fun _ => Ideal.div (halfSum m c 0 + halfSum m c 1) Cert.Spec.big := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v2) = outArr m c :=
    (Pipeline.withArrays_arr spec0 launch0.win.arr_inj c _ _ 2).trans (final_out m c)
  rw [e]
  funext j
  show Ideal.div (shapeCast S_ (extractStridedSlice S1x1 ![0, 0] (outArr m c) slices_S16x128_S1x1_0_0) shapeCasts_S1x1_S_ j
      + shapeCast S_ (extractStridedSlice S1x1 ![8, 0] (outArr m c) slices_S16x128_S1x1_8_0) shapeCasts_S1x1_S_ j) (Ideal.ofBits .f32 0x47800000#32) = _
  unfold shapeCast
  rw [out_00, out_80]

/-! ## The steps' blocks are the batch's blocks -/

/-- The host reshapes before the region: the arrays the two input windows stage are the arguments re-laid as
    32768 × 2 × 256. -/
theorem V_zi (c : Dev nD) : (V m c main_v0 : S32768x2x256.Idx → EReal)
    = shapeCast S32768x2x256 (m ((c.tc : Thread nD τ).loc main_arg0)) shapeCasts_S65536x256_S32768x2x256 := by
  show StableHlo.after hostOps0 (fun b => m (c, b)) (Proc.devRef .tc main_v0) = _
  after_results
  rfl
theorem V_zj (c : Dev nD) : (V m c main_v1 : S32768x2x256.Idx → EReal)
    = shapeCast S32768x2x256 (m ((c.tc : Thread nD τ).loc main_arg1)) shapeCasts_S65536x256_S32768x2x256 := by
  show StableHlo.after hostOps0 (fun b => m (c, b)) (Proc.devRef .tc main_v1) = _
  after_results
  rfl

/-- Both input windows' block index along the chunks is the step. -/
theorem zi_index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem zj_index0 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The re-laid array at chunk `n`, row `s`, column `d` is the argument at row `2n + s`. -/
theorem relaid_apply (a : FVec Ideal S65536x256 .f32) (n : Fin 32768) (s : Fin 2) (d : Fin 256) :
    shapeCast S32768x2x256 a shapeCasts_S65536x256_S32768x2x256 (ValueIdx.ix3 n s d)
      = a (ValueIdx.ix2 ⟨2 * n.val + s.val, by have := n.isLt; have := s.isLt; omega⟩ d) := by
  refine shapeCast_apply a _ _ _ ?_
  rw [Shape.rowMajor_val_two, Shape.rowMajor_val_three]
  show (2 * n.val + s.val) * 256 + d.val = (n.val * 2 + s.val) * 256 + d.val
  omega

/-- Step `t`'s block of `zi` at chunk `r`, row `s`, column `d`. -/
theorem iblk_zi (c : Dev nD) (t : Fin cfg0.N) (r : Fin 1024) (s : Fin 2) (d : Fin 256) :
    iblk m c 0 t (ValueIdx.ix3 r s d)
      = m ((c.tc : Thread nD τ).loc main_arg0)
          (ValueIdx.ix2 ⟨2 * (t.val * 1024 + r.val) + s.val, by
            have := lt_of_lt_of_eq t.isLt (show cfg0.N = 32 from N_0); have := r.isLt; have := s.isLt; omega⟩ d) := by
  have hN := lt_of_lt_of_eq t.isLt (show cfg0.N = 32 from N_0)
  have hr := r.isLt
  obtain ⟨i0, i1, i2⟩ := zi_index0 t
  show V m c main_v0 (((cfg0.win 0).blk t).view.emb (ValueIdx.ix3 r s d)) = _
  rw [V_zi, ← relaid_apply (m ((c.tc : Thread nD τ).loc main_arg0)) ⟨t.val * 1024 + r.val, by omega⟩ s d]
  refine congrArg _ (funext fun a => Fin.ext ?_)
  match a with
  | ⟨0, _⟩ => show win0_0.index t 0 * 1024 + 1 * r.val = t.val * 1024 + r.val; rw [i0]; omega
  | ⟨1, _⟩ => show win0_0.index t 1 * 2 + 1 * s.val = s.val; rw [i1]; omega
  | ⟨2, _⟩ => show win0_0.index t 2 * 256 + 1 * d.val = d.val; rw [i2]; omega

/-- Step `t`'s block of `zj` at chunk `r`, row `s`, column `d`. -/
theorem iblk_zj (c : Dev nD) (t : Fin cfg0.N) (r : Fin 1024) (s : Fin 2) (d : Fin 256) :
    iblk m c 1 t (ValueIdx.ix3 r s d)
      = m ((c.tc : Thread nD τ).loc main_arg1)
          (ValueIdx.ix2 ⟨2 * (t.val * 1024 + r.val) + s.val, by
            have := lt_of_lt_of_eq t.isLt (show cfg0.N = 32 from N_0); have := r.isLt; have := s.isLt; omega⟩ d) := by
  have hN := lt_of_lt_of_eq t.isLt (show cfg0.N = 32 from N_0)
  have hr := r.isLt
  obtain ⟨i0, i1, i2⟩ := zj_index0 t
  show V m c main_v1 (((cfg0.win 1).blk t).view.emb (ValueIdx.ix3 r s d)) = _
  rw [V_zj, ← relaid_apply (m ((c.tc : Thread nD τ).loc main_arg1)) ⟨t.val * 1024 + r.val, by omega⟩ s d]
  refine congrArg _ (funext fun a => Fin.ext ?_)
  match a with
  | ⟨0, _⟩ => show win0_1.index t 0 * 1024 + 1 * r.val = t.val * 1024 + r.val; rw [i0]; omega
  | ⟨1, _⟩ => show win0_1.index t 1 * 2 + 1 * s.val = s.val; rw [i1]; omega
  | ⟨2, _⟩ => show win0_1.index t 2 * 256 + 1 * d.val = d.val; rw [i2]; omega

/-- The batch of chunks read off the two argument arrays. -/
abbrev batch (c : Dev nD) : Fin 32768 → Fin 4 → Fin 256 → EReal :=
  Cert.Spec.reps (m ((c.tc : Thread nD τ).loc main_arg0)) (m ((c.tc : Thread nD τ).loc main_arg1))

/-- A step's two blocks are block `t` of the batch. -/
theorem blockReps_eq (c : Dev nD) (t : Fin cfg0.N) :
    blockReps (iblk m c 0 t) (iblk m c 1 t) = Cert.Spec.blk (batch m c) ⟨t.val, lt_of_lt_of_eq t.isLt (show cfg0.N = 32 from N_0)⟩ := by
  funext r cc d
  unfold blockReps Cert.Spec.blk batch Cert.Spec.reps
  by_cases h : cc.val < 2
  · rw [dif_pos h, dif_pos h]
    exact iblk_zj m c t r ⟨cc.val, h⟩ d
  · rw [dif_neg h, dif_neg h]
    exact iblk_zi m c t r ⟨cc.val - 2, by have := cc.isLt; omega⟩ d

/-- So a half's sum is the sum of the batch's sixteen blocks' contributions. -/
theorem halfSum_zero (c : Dev nD) :
    halfSum m c 0 = ∑ i : Fin 16, Cert.Spec.contribBlk (Cert.Spec.blk (batch m c) ⟨i.val, by have := i.isLt; omega⟩) := by
  unfold halfSum
  rw [Finset.sum_range]
  refine Finset.sum_congr rfl fun i _ => ?_
  have hi : 16 * 0 + i.val < cfg0.N := by rw [show cfg0.N = 32 from N_0]; have := i.isLt; omega
  rw [stepContrib_of_lt m c _ hi, blockReps_eq]
  congr 2
  apply Fin.ext
  show 16 * 0 + i.val = i.val
  omega
theorem halfSum_one (c : Dev nD) :
    halfSum m c 1 = ∑ i : Fin 16, Cert.Spec.contribBlk (Cert.Spec.blk (batch m c) ⟨16 + i.val, by have := i.isLt; omega⟩) := by
  unfold halfSum
  rw [Finset.sum_range]
  refine Finset.sum_congr rfl fun i _ => ?_
  have hi : 16 * 1 + i.val < cfg0.N := by rw [show cfg0.N = 32 from N_0]; have := i.isLt; omega
  rw [stepContrib_of_lt m c _ hi, blockReps_eq]

/-- The kernel's run: the result is the kernel's closed form of the batch, the arguments unchanged. -/
theorem kernel_run : θ_run defs (onTc (τ := τ) (main (F := Ideal))) ⟨m, fun _ => 0, ρ⟩ fun r => ∀ c : Dev nD,
      r.2.mem ((c.tc : Thread nD τ).loc main_v8) = (fun _ => Cert.Spec.Kres (batch m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans
        ((tail_eq m c).trans (by unfold Cert.Spec.Kres; rw [halfSum_zero, halfSum_one])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end AtIdeal

end Cert.KernelIdeal.Hand

end
-- ==== Proof.RefTerm.lean ====
/-
  The reference's @main as a pure function of the two argument arrays, a stage per operation, in the program's
  order (its three outlined functions — the norm, the take-along-axis, the log-softmax — written out where they are
  called), cut into seven pieces: the chunks' rows, the similarities, the positives, the negatives, the logits, the
  log-softmax, and the final sum. The run of the program ends with its result buffer at `refVal`; the value proof
  reads it piece by piece.
-/
import proofs.«136156_j6227702579662_1_alg».proof.ReferenceIdeal
import proofs.«136156_j6227702579662_1_alg».proof.Proof.Gen.ReferenceIdeal

noncomputable section

namespace Cert.ReferenceIdeal.Hand

open Cert.ReferenceIdeal Idealize.ShloMosaic
open Cert.ReferenceIdeal.Facts₀

variable {F : FTy → Type} [FloatOps F]

/-- The chunks' four rows: `zjs`'s two, then `zis`'s two. -/
def rowsArr (a0 a1 : FVec F S65536x256 .f32) : FVec F S32768x4x256 .f32 :=
  let v0 : FVec F S32768x2x256 .f32 := shapeCast S32768x2x256 a0 shapeCasts_S65536x256_S32768x2x256
  let v1 : FVec F S32768x2x256 .f32 := shapeCast S32768x2x256 a1 shapeCasts_S65536x256_S32768x2x256
  concatenate S32768x4x256 1 [⟨S32768x2x256, v1⟩, ⟨S32768x2x256, v0⟩] concatenates_S32768x2x256_S32768x2x256_S32768x4x256_d1

/-- The rows normalized (the norm clamped below) and their 4 × 4 similarities per chunk. -/
def simArr (v2 : FVec F S32768x4x256 .f32) : FVec F S32768x4x4 .f32 :=
  let n0 : FVec F S32768x4x256 .f32 := mulf v2 v2
  let ncst : FVec F S_ .f32 := constant S_ .f32 0x00000000#32
  let n1 : FVec F S32768x4 .f32 := Host.reduceAdd n0 ncst reducesTo_S32768x4x256_S32768x4_d2 h_S_
  let n2 : FVec F S32768x4x1 .f32 := broadcastInDim S32768x4x1 ![0, 1] bcast_S32768x4_S32768x4x1_0_1 n1
  let v3 : FVec F S32768x4x1 .f32 := Host.sqrt n2
  let cst : FVec F S_ .f32 := constant S_ .f32 0x322BCC77#32
  let v4 : FVec F S32768x4x1 .f32 := broadcastInDim S32768x4x1 ![] bcast_S_S32768x4x1 cst
  let v5 : FVec F S32768x4x1 .f32 := maximumf v3 v4
  let v6 : FVec F S32768x4x256 .f32 := broadcastInDim S32768x4x256 ![0, 1, 2] bcast_S32768x4x1_S32768x4x256_0_1_2 v5
  let v7 : FVec F S32768x4x256 .f32 := Host.divf v2 v6
  Host.dotGeneral dot_S32768x4x256_S32768x4x256_S32768x4x4_2_2_1_1_0_0 none v7 v7

/-- Each row's positive: entries (0,2), (1,3), (2,0), (3,1) of the chunk's similarities. -/
def posArr (v8 : FVec F S32768x4x4 .f32) : FVec F S32768x4 .f32 :=
  let v9 : FVec F S32768x1x1 .f32 := extractStridedSlice S32768x1x1 ![0, 0, 2] v8 slices_S32768x4x4_S32768x1x1_0_0_2
  let v10 : FVec F S32768 .f32 := shapeCast S32768 v9 shapeCasts_S32768x1x1_S32768
  let v11 : FVec F S32768x1x1 .f32 := extractStridedSlice S32768x1x1 ![0, 1, 3] v8 slices_S32768x4x4_S32768x1x1_0_1_3
  let v12 : FVec F S32768 .f32 := shapeCast S32768 v11 shapeCasts_S32768x1x1_S32768
  let v13 : FVec F S32768x1x1 .f32 := extractStridedSlice S32768x1x1 ![0, 2, 0] v8 slices_S32768x4x4_S32768x1x1_0_2_0
  let v14 : FVec F S32768 .f32 := shapeCast S32768 v13 shapeCasts_S32768x1x1_S32768
  let v15 : FVec F S32768x1x1 .f32 := extractStridedSlice S32768x1x1 ![0, 3, 1] v8 slices_S32768x4x4_S32768x1x1_0_3_1
  let v16 : FVec F S32768 .f32 := shapeCast S32768 v15 shapeCasts_S32768x1x1_S32768
  let v17 : FVec F S32768x1 .f32 := broadcastInDim S32768x1 ![0] bcast_S32768_S32768x1_0 v10
  let v18 : FVec F S32768x1 .f32 := broadcastInDim S32768x1 ![0] bcast_S32768_S32768x1_0 v12
  let v19 : FVec F S32768x1 .f32 := broadcastInDim S32768x1 ![0] bcast_S32768_S32768x1_0 v14
  let v20 : FVec F S32768x1 .f32 := broadcastInDim S32768x1 ![0] bcast_S32768_S32768x1_0 v16
  concatenate S32768x4 1 [⟨S32768x1, v17⟩, ⟨S32768x1, v18⟩, ⟨S32768x1, v19⟩, ⟨S32768x1, v20⟩] concatenates_S32768x1_S32768x1_S32768x1_S32768x1_S32768x4_d1

/-- The table of negatives' columns, made non-negative and laid out as gather indices. -/
def negIdx : IVec S4x2x1 32 :=
  let c : IVec S4x2 32 := fun i => lit0 (S4x2.rowMajor i)
  let v22 : IVec S1x4x2 32 := broadcastInDim S1x4x2 ![1, 2] bcast_S4x2_S1x4x2_1_2 c
  let tc : IVec S_ 32 := constantI S_ 32 0#32
  let t0 : IVec S1x4x2 32 := broadcastInDim S1x4x2 ![] bcast_S_S1x4x2 tc
  let t1 : IVec S1x4x2 1 := cmpi .slt v22 t0
  let tc0 : IVec S_ 32 := constantI S_ 32 4#32
  let t2 : IVec S1x4x2 32 := broadcastInDim S1x4x2 ![] bcast_S_S1x4x2 tc0
  let t3 : IVec S1x4x2 32 := addi v22 t2
  let t4 : IVec S1x4x2 32 := select t1 t3 v22
  shapeCast S4x2x1 t4 shapeCasts_S1x4x2_S4x2x1

/-- Whether each index of the table is inside the similarities' last axis. -/
def negOk : IVec S4x2 1 :=
  let t5 : IVec S4x2x1 32 := negIdx
  let tc1 : IVec S1 32 := constantI S1 32 3#32
  let tc2 : IVec S_ 32 := constantI S_ 32 0#32
  let t6 : IVec S4x2x1 32 := broadcastInDim S4x2x1 ![] bcast_S_S4x2x1 tc2
  let t7 : IVec S4x2x1 1 := cmpi .sge t5 t6
  let t8 : IVec S1x1x1 32 := broadcastInDim S1x1x1 ![2] bcast_S1_S1x1x1_2 tc1
  let t9 : IVec S4x2x1 32 := broadcastInDim S4x2x1 ![0, 1, 2] bcast_S1x1x1_S4x2x1_0_1_2 t8
  let t10 : IVec S4x2x1 1 := cmpi .sle t5 t9
  let t11 : IVec S4x2x1 1 := andi t7 t10
  let tc3 : IVec S_ 1 := constantI S_ 1 1#1
  Host.reduce IntOp.andi t11 tc3 reducesTo_S4x2x1_S4x2_d2 h_S_

/-- Each row's two negatives, taken along the last axis of the similarities. -/
def negArr (v8 : FVec F S32768x4x4 .f32) : FVec F S32768x4x2 .f32 :=
  let t13 : FVec F S32768x4x2 .f32 := Host.gather gather_S32768x4x4_S4x2x1_S32768x4x2_0_2_1_0_2_2_3276811 v8 negIdx
  let t14 : IVec S32768x4x2 1 := broadcastInDim S32768x4x2 ![1, 2] bcast_S4x2_S32768x4x2_1_2 negOk
  let tcst : FVec F S_ .f32 := constant S_ .f32 0x7FC00000#32
  let t15 : FVec F S32768x4x2 .f32 := broadcastInDim S32768x4x2 ![] bcast_S_S32768x4x2 tcst
  select t14 t13 t15

/-- The three logits of every row: positive first, all over the temperature. -/
def logitArr (v21 : FVec F S32768x4 .f32) (v23 : FVec F S32768x4x2 .f32) : FVec F S32768x4x3 .f32 :=
  let v24 : FVec F S32768x4x1 .f32 := broadcastInDim S32768x4x1 ![0, 1] bcast_S32768x4_S32768x4x1_0_1 v21
  let v25 : FVec F S32768x4x3 .f32 := concatenate S32768x4x3 2 [⟨S32768x4x1, v24⟩, ⟨S32768x4x2, v23⟩] concatenates_S32768x4x1_S32768x4x2_S32768x4x3_d2
  let cst0 : FVec F S_ .f32 := constant S_ .f32 0x3F000000#32
  let v26 : FVec F S32768x4x3 .f32 := broadcastInDim S32768x4x3 ![] bcast_S_S32768x4x3 cst0
  Host.divf v25 v26

/-- The log-softmax along the last axis. -/
def lsmArr (v27 : FVec F S32768x4x3 .f32) : FVec F S32768x4x3 .f32 :=
  let lcst : FVec F S_ .f32 := constant S_ .f32 0xFF800000#32
  let l0 : FVec F S32768x4 .f32 := Host.reduce FloatOps.maximumf v27 lcst reducesTo_S32768x4x3_S32768x4_d2 h_S_
  let lcst0 : FVec F S_ .f32 := constant S_ .f32 0xFF800000#32
  let l1 : FVec F S32768x4 .f32 := broadcastInDim S32768x4 ![] bcast_S_S32768x4 lcst0
  let l2 : FVec F S32768x4 .f32 := maximumf l1 l0
  let l3 : FVec F S32768x4x1 .f32 := broadcastInDim S32768x4x1 ![0, 1] bcast_S32768x4_S32768x4x1_0_1 l2
  let l4 : FVec F S32768x4x3 .f32 := broadcastInDim S32768x4x3 ![0, 1, 2] bcast_S32768x4x1_S32768x4x3_0_1_2 l3
  let l5 : FVec F S32768x4x3 .f32 := subf v27 l4
  let l6 : FVec F S32768x4x3 .f32 := Host.exp l5
  let lcst1 : FVec F S_ .f32 := constant S_ .f32 0x00000000#32
  let l7 : FVec F S32768x4 .f32 := Host.reduceAdd l6 lcst1 reducesTo_S32768x4x3_S32768x4_d2 h_S_
  let l8 : FVec F S32768x4x1 .f32 := broadcastInDim S32768x4x1 ![0, 1] bcast_S32768x4_S32768x4x1_0_1 l7
  let l9 : FVec F S32768x4x1 .f32 := Host.log l8
  let l10 : FVec F S32768x4x3 .f32 := broadcastInDim S32768x4x3 ![0, 1, 2] bcast_S32768x4x1_S32768x4x3_0_1_2 l9
  subf l5 l10

/-- Minus the log-softmax's first entry, summed over all rows, over 65536. -/
def totalArr (v28 : FVec F S32768x4x3 .f32) : FVec F S_ .f32 :=
  let v29 : FVec F S32768x4x1 .f32 := extractStridedSlice S32768x4x1 ![0, 0, 0] v28 slices_S32768x4x3_S32768x4x1_0_0_0
  let v30 : FVec F S32768x4 .f32 := shapeCast S32768x4 v29 shapeCasts_S32768x4x1_S32768x4
  let v31 : FVec F S32768x4 .f32 := Host.negf v30
  let cst1 : FVec F S_ .f32 := constant S_ .f32 0x00000000#32
  let v32 : FVec F S_ .f32 := Host.reduceAdd v31 cst1 reducesTo_S32768x4_S_d0_1 h_S_
  let cst2 : FVec F S_ .f32 := constant S_ .f32 0x47800000#32
  Host.divf v32 cst2

/-- The reference's result from the contents of `zis` (`a0`) and `zjs` (`a1`). -/
def refVal (a0 a1 : FVec F S65536x256 .f32) : FVec F S_ .f32 :=
  totalArr (lsmArr (logitArr (posArr (simArr (rowsArr a0 a1))) (negArr (simArr (rowsArr a0 a1)))))

end Cert.ReferenceIdeal.Hand

end
-- ==== Proof.RefRun.lean ====
/-
  The reference's run: every weakly fair execution of its @main terminates with the result buffer at `refVal` of the
  two arguments' launch contents, the arguments unchanged.

  @main is a straight line of 79 tensor operations once its three outlined functions are read at their calls (the
  callee's operations stand where the call stands, over the call's own buffers). The line is cut at the seven values
  `refVal` is cut at; the contents of each stage's result after that stage, from ANY contents before it, is the
  stage's pure term of the values it reads, and the buffers a later stage still reads are carried across unchanged.
-/
import proofs.«136156_j6227702579662_1_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-! ## The operations, stage by stage -/

/-- The literal table of negatives' columns, the two arguments as chunks of two rows, and their concatenation: each chunk's four rows. -/
abbrev opsRows : List (HloOp τ sig (Elt F)) :=
  [ StableHlo.nullary main_c (fun i => lit0 (S4x2.rowMajor i)),
    StableHlo.reshape main_arg0 main_v0 rfl shapeCasts_S65536x256_S32768x2x256,
    StableHlo.reshape main_arg1 main_v1 rfl shapeCasts_S65536x256_S32768x2x256,
    StableHlo.binary main_v1 main_v0 main_v2 ((fun a b => concatenate S32768x4x256 1 [⟨S32768x2x256, a⟩, ⟨S32768x2x256, b⟩] concatenates_S32768x2x256_S32768x2x256_S32768x4x256_d1) : (⟨S32768x2x256, .f32⟩ : BufTy).Contents (Elt F) → (⟨S32768x2x256, .f32⟩ : BufTy).Contents (Elt F) → (⟨S32768x4x256, .f32⟩ : BufTy).Contents (Elt F)) ]

/-- The rows' norms (the outlined norm: squares, their sum along the last axis, its square root), clamped below, the rows divided by them, and the 4 × 4 similarities of each chunk. -/
abbrev opsSim : List (HloOp τ sig (Elt F)) :=
  [ StableHlo.TRef.binary (.of main_v2 : TRef sig ⟨S32768x4x256, .f32⟩) (.of main_v2 : TRef sig ⟨S32768x4x256, .f32⟩) main_call0.v0 mulf,
    StableHlo.TRef.nullary main_call0.cst (constant S_ .f32 0x00000000#32),
    StableHlo.TRef.binary main_call0.v0 main_call0.cst main_call0.v1 (fun x v => Host.reduceAdd x v reducesTo_S32768x4x256_S32768x4_d2 h_S_),
    StableHlo.TRef.unary main_call0.v1 main_call0.v2 (broadcastInDim S32768x4x1 ![0, 1] bcast_S32768x4_S32768x4x1_0_1),
    StableHlo.TRef.unary main_call0.v2 main_call0.v3 Host.sqrt,
    StableHlo.nullary main_cst (constant S_ .f32 0x322BCC77#32),
    StableHlo.unary main_cst main_v4 (broadcastInDim S32768x4x1 ![] bcast_S_S32768x4x1 : (⟨S_, .f32⟩ : BufTy).Contents (Elt F) → (⟨S32768x4x1, .f32⟩ : BufTy).Contents (Elt F)),
    StableHlo.binary main_v3 main_v4 main_v5 (maximumf : (⟨S32768x4x1, .f32⟩ : BufTy).Contents (Elt F) → (⟨S32768x4x1, .f32⟩ : BufTy).Contents (Elt F) → (⟨S32768x4x1, .f32⟩ : BufTy).Contents (Elt F)),
    StableHlo.unary main_v5 main_v6 (broadcastInDim S32768x4x256 ![0, 1, 2] bcast_S32768x4x1_S32768x4x256_0_1_2 : (⟨S32768x4x1, .f32⟩ : BufTy).Contents (Elt F) → (⟨S32768x4x256, .f32⟩ : BufTy).Contents (Elt F)),
    StableHlo.binary main_v2 main_v6 main_v7 (Host.divf : (⟨S32768x4x256, .f32⟩ : BufTy).Contents (Elt F) → (⟨S32768x4x256, .f32⟩ : BufTy).Contents (Elt F) → (⟨S32768x4x256, .f32⟩ : BufTy).Contents (Elt F)),
    StableHlo.binary main_v7 main_v7 main_v8 ((fun l r => Host.dotGeneral dot_S32768x4x256_S32768x4x256_S32768x4x4_2_2_1_1_0_0 none l r) : (⟨S32768x4x256, .f32⟩ : BufTy).Contents (Elt F) → (⟨S32768x4x256, .f32⟩ : BufTy).Contents (Elt F) → (⟨S32768x4x4, .f32⟩ : BufTy).Contents (Elt F)) ]

/-- The four positives: entries (0,2), (1,3), (2,0), (3,1) of each chunk's similarities, each sliced, flattened, given a unit axis, and the four concatenated. -/
abbrev opsPos : List (HloOp τ sig (Elt F)) :=
  [ StableHlo.unary main_v8 main_v9 ((extractStridedSlice S32768x1x1 ![0, 0, 2] · slices_S32768x4x4_S32768x1x1_0_0_2) : (⟨S32768x4x4, .f32⟩ : BufTy).Contents (Elt F) → (⟨S32768x1x1, .f32⟩ : BufTy).Contents (Elt F)),
    StableHlo.reshape main_v9 main_v10 rfl shapeCasts_S32768x1x1_S32768,
    StableHlo.unary main_v8 main_v11 ((extractStridedSlice S32768x1x1 ![0, 1, 3] · slices_S32768x4x4_S32768x1x1_0_1_3) : (⟨S32768x4x4, .f32⟩ : BufTy).Contents (Elt F) → (⟨S32768x1x1, .f32⟩ : BufTy).Contents (Elt F)),
    StableHlo.reshape main_v11 main_v12 rfl shapeCasts_S32768x1x1_S32768,
    StableHlo.unary main_v8 main_v13 ((extractStridedSlice S32768x1x1 ![0, 2, 0] · slices_S32768x4x4_S32768x1x1_0_2_0) : (⟨S32768x4x4, .f32⟩ : BufTy).Contents (Elt F) → (⟨S32768x1x1, .f32⟩ : BufTy).Contents (Elt F)),
    StableHlo.reshape main_v13 main_v14 rfl shapeCasts_S32768x1x1_S32768,
    StableHlo.unary main_v8 main_v15 ((extractStridedSlice S32768x1x1 ![0, 3, 1] · slices_S32768x4x4_S32768x1x1_0_3_1) : (⟨S32768x4x4, .f32⟩ : BufTy).Contents (Elt F) → (⟨S32768x1x1, .f32⟩ : BufTy).Contents (Elt F)),
    StableHlo.reshape main_v15 main_v16 rfl shapeCasts_S32768x1x1_S32768,
    StableHlo.unary main_v10 main_v17 (broadcastInDim S32768x1 ![0] bcast_S32768_S32768x1_0 : (⟨S32768, .f32⟩ : BufTy).Contents (Elt F) → (⟨S32768x1, .f32⟩ : BufTy).Contents (Elt F)),
    StableHlo.unary main_v12 main_v18 (broadcastInDim S32768x1 ![0] bcast_S32768_S32768x1_0 : (⟨S32768, .f32⟩ : BufTy).Contents (Elt F) → (⟨S32768x1, .f32⟩ : BufTy).Contents (Elt F)),
    StableHlo.unary main_v14 main_v19 (broadcastInDim S32768x1 ![0] bcast_S32768_S32768x1_0 : (⟨S32768, .f32⟩ : BufTy).Contents (Elt F) → (⟨S32768x1, .f32⟩ : BufTy).Contents (Elt F)),
    StableHlo.unary main_v16 main_v20 (broadcastInDim S32768x1 ![0] bcast_S32768_S32768x1_0 : (⟨S32768, .f32⟩ : BufTy).Contents (Elt F) → (⟨S32768x1, .f32⟩ : BufTy).Contents (Elt F)),
    StableHlo.nary ![main_v17, main_v18, main_v19, main_v20] main_v21 (fun u => concatenate S32768x4 1 [⟨S32768x1, u 0⟩, ⟨S32768x1, u 1⟩, ⟨S32768x1, u 2⟩, ⟨S32768x1, u 3⟩] concatenates_S32768x1_S32768x1_S32768x1_S32768x1_S32768x4_d1) ]

/-- The negatives: the table broadcast, then the outlined take-along-axis (negative indices wrapped, the range test, the gather along the last axis, out-of-range reads filled). -/
abbrev opsNeg : List (HloOp τ sig (Elt F)) :=
  [ StableHlo.unary main_c main_v22 (broadcastInDim S1x4x2 ![1, 2] bcast_S4x2_S1x4x2_1_2 : (⟨S4x2, .i32⟩ : BufTy).Contents (Elt F) → (⟨S1x4x2, .i32⟩ : BufTy).Contents (Elt F)),
    StableHlo.TRef.nullary main_call1.c (constantI S_ 32 0#32),
    StableHlo.TRef.unary main_call1.c main_call1.v0 (broadcastInDim S1x4x2 ![] bcast_S_S1x4x2),
    StableHlo.TRef.binary (.of main_v22 : TRef sig ⟨S1x4x2, .i32⟩) main_call1.v0 main_call1.v1 (cmpi .slt),
    StableHlo.TRef.nullary main_call1.c_0 (constantI S_ 32 4#32),
    StableHlo.TRef.unary main_call1.c_0 main_call1.v2 (broadcastInDim S1x4x2 ![] bcast_S_S1x4x2),
    StableHlo.TRef.binary (.of main_v22 : TRef sig ⟨S1x4x2, .i32⟩) main_call1.v2 main_call1.v3 addi,
    StableHlo.TRef.ternary main_call1.v1 main_call1.v3 (.of main_v22 : TRef sig ⟨S1x4x2, .i32⟩) main_call1.v4 select,
    StableHlo.TRef.reshape main_call1.v4 main_call1.v5 rfl shapeCasts_S1x4x2_S4x2x1,
    StableHlo.TRef.nullary main_call1.c_1 (constantI S1 32 3#32),
    StableHlo.TRef.nullary main_call1.c_2 (constantI S_ 32 0#32),
    StableHlo.TRef.unary main_call1.c_2 main_call1.v6 (broadcastInDim S4x2x1 ![] bcast_S_S4x2x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S4x2x1 ![0, 1, 2] bcast_S1x1x1_S4x2x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4x2x1_S4x2_d2 h_S_),
    StableHlo.TRef.binary (.of main_v8 : TRef sig ⟨S32768x4x4, .f32⟩) main_call1.v5 main_call1.v13 (fun x i => Host.gather gather_S32768x4x4_S4x2x1_S32768x4x2_0_2_1_0_2_2_3276811 x i),
    StableHlo.TRef.unary main_call1.v12 main_call1.v14 (broadcastInDim S32768x4x2 ![1, 2] bcast_S4x2_S32768x4x2_1_2),
    StableHlo.TRef.nullary main_call1.cst (constant S_ .f32 0x7FC00000#32),
    StableHlo.TRef.unary main_call1.cst main_call1.v15 (broadcastInDim S32768x4x2 ![] bcast_S_S32768x4x2),
    StableHlo.TRef.ternary main_call1.v14 main_call1.v13 main_call1.v15 main_call1.v16 select ]

/-- The logits: the positive first, then the two negatives, all divided by the temperature. -/
abbrev opsLogit : List (HloOp τ sig (Elt F)) :=
  [ StableHlo.unary main_v21 main_v24 (broadcastInDim S32768x4x1 ![0, 1] bcast_S32768x4_S32768x4x1_0_1 : (⟨S32768x4, .f32⟩ : BufTy).Contents (Elt F) → (⟨S32768x4x1, .f32⟩ : BufTy).Contents (Elt F)),
    StableHlo.binary main_v24 main_v23 main_v25 ((fun a b => concatenate S32768x4x3 2 [⟨S32768x4x1, a⟩, ⟨S32768x4x2, b⟩] concatenates_S32768x4x1_S32768x4x2_S32768x4x3_d2) : (⟨S32768x4x1, .f32⟩ : BufTy).Contents (Elt F) → (⟨S32768x4x2, .f32⟩ : BufTy).Contents (Elt F) → (⟨S32768x4x3, .f32⟩ : BufTy).Contents (Elt F)),
    StableHlo.nullary main_cst_0 (constant S_ .f32 0x3F000000#32),
    StableHlo.unary main_cst_0 main_v26 (broadcastInDim S32768x4x3 ![] bcast_S_S32768x4x3 : (⟨S_, .f32⟩ : BufTy).Contents (Elt F) → (⟨S32768x4x3, .f32⟩ : BufTy).Contents (Elt F)),
    StableHlo.binary main_v25 main_v26 main_v27 (Host.divf : (⟨S32768x4x3, .f32⟩ : BufTy).Contents (Elt F) → (⟨S32768x4x3, .f32⟩ : BufTy).Contents (Elt F) → (⟨S32768x4x3, .f32⟩ : BufTy).Contents (Elt F)) ]

/-- The outlined log-softmax along the last axis: the maximum, the shifted values, the logarithm of the sum of their exponentials, the difference. -/
abbrev opsLsm : List (HloOp τ sig (Elt F)) :=
  [ StableHlo.TRef.nullary main_call2.cst (constant S_ .f32 0xFF800000#32),
    StableHlo.TRef.binary (.of main_v27 : TRef sig ⟨S32768x4x3, .f32⟩) main_call2.cst main_call2.v0 (fun x v => Host.reduce FloatOps.maximumf x v reducesTo_S32768x4x3_S32768x4_d2 h_S_),
    StableHlo.TRef.nullary main_call2.cst_0 (constant S_ .f32 0xFF800000#32),
    StableHlo.TRef.unary main_call2.cst_0 main_call2.v1 (broadcastInDim S32768x4 ![] bcast_S_S32768x4),
    StableHlo.TRef.binary main_call2.v1 main_call2.v0 main_call2.v2 maximumf,
    StableHlo.TRef.unary main_call2.v2 main_call2.v3 (broadcastInDim S32768x4x1 ![0, 1] bcast_S32768x4_S32768x4x1_0_1),
    StableHlo.TRef.unary main_call2.v3 main_call2.v4 (broadcastInDim S32768x4x3 ![0, 1, 2] bcast_S32768x4x1_S32768x4x3_0_1_2),
    StableHlo.TRef.binary (.of main_v27 : TRef sig ⟨S32768x4x3, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S32768x4x3_S32768x4_d2 h_S_),
    StableHlo.TRef.unary main_call2.v7 main_call2.v8 (broadcastInDim S32768x4x1 ![0, 1] bcast_S32768x4_S32768x4x1_0_1),
    StableHlo.TRef.unary main_call2.v8 main_call2.v9 Host.log,
    StableHlo.TRef.unary main_call2.v9 main_call2.v10 (broadcastInDim S32768x4x3 ![0, 1, 2] bcast_S32768x4x1_S32768x4x3_0_1_2),
    StableHlo.TRef.binary main_call2.v5 main_call2.v10 main_call2.v11 subf ]

/-- The loss: minus the first entry of every row's log-softmax, summed over all rows, divided by the number of rows. -/
abbrev opsTotal : List (HloOp τ sig (Elt F)) :=
  [ StableHlo.unary main_v28 main_v29 ((extractStridedSlice S32768x4x1 ![0, 0, 0] · slices_S32768x4x3_S32768x4x1_0_0_0) : (⟨S32768x4x3, .f32⟩ : BufTy).Contents (Elt F) → (⟨S32768x4x1, .f32⟩ : BufTy).Contents (Elt F)),
    StableHlo.reshape main_v29 main_v30 rfl shapeCasts_S32768x4x1_S32768x4,
    StableHlo.unary main_v30 main_v31 (Host.negf : (⟨S32768x4, .f32⟩ : BufTy).Contents (Elt F) → (⟨S32768x4, .f32⟩ : BufTy).Contents (Elt F)),
    StableHlo.nullary main_cst_1 (constant S_ .f32 0x00000000#32),
    StableHlo.binary main_v31 main_cst_1 main_v32 ((fun x v => Host.reduceAdd x v reducesTo_S32768x4_S_d0_1 h_S_) : (⟨S32768x4, .f32⟩ : BufTy).Contents (Elt F) → (⟨S_, .f32⟩ : BufTy).Contents (Elt F) → (⟨S_, .f32⟩ : BufTy).Contents (Elt F)),
    StableHlo.nullary main_cst_2 (constant S_ .f32 0x47800000#32),
    StableHlo.binary main_v32 main_cst_2 main_v33 (Host.divf : (⟨S_, .f32⟩ : BufTy).Contents (Elt F) → (⟨S_, .f32⟩ : BufTy).Contents (Elt F) → (⟨S_, .f32⟩ : BufTy).Contents (Elt F)) ]

/-- @main's 79 operations, in program order. -/
abbrev ops : List (HloOp τ sig (Elt F)) :=
  opsRows ++ (opsSim ++ (opsPos ++ (opsNeg ++ (opsLogit ++ (opsLsm ++ (opsTotal))))))

/-! ## The program is that line -/

set_option maxRecDepth 8192 in
/-- The functions' definitions unfolded at their calls and sequencing reassociated, both sides are one chain of steps. -/
theorem main_eq (c : Dev nD) : main (F := F) c = seq ops := by
  simp only [main, fn_norm.body, fn_take_along_axis.body, fn_log_softmax.body, ops, opsRows, opsSim, opsPos, opsNeg, opsLogit, opsLsm, opsTotal,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsRows_sub : (opsRows : List (HloOp τ sig (Elt F))).Forall fun op => op.bufs ⊆ tcRefs τ sig :=
  ⟨nullary_bufs_sub .., reshape_bufs_sub .., reshape_bufs_sub .., binary_bufs_sub ..⟩
theorem opsSim_sub : (opsSim : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub ..⟩
theorem opsPos_sub : (opsPos : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., nary_bufs_sub ..⟩
theorem opsNeg_sub : (opsNeg : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsLogit_sub : (opsLogit : List (HloOp τ sig (Elt F))).Forall fun op => op.bufs ⊆ tcRefs τ sig :=
  ⟨unary_bufs_sub .., binary_bufs_sub .., nullary_bufs_sub .., unary_bufs_sub .., binary_bufs_sub ..⟩
theorem opsLsm_sub : (opsLsm : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsTotal_sub : (opsTotal : List (HloOp τ sig (Elt F))).Forall fun op => op.bufs ⊆ tcRefs τ sig :=
  ⟨unary_bufs_sub .., reshape_bufs_sub .., unary_bufs_sub .., nullary_bufs_sub .., binary_bufs_sub .., nullary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp opsRows_sub op h,
      List.forall_iff_forall_mem.mp opsSim_sub op h,
      List.forall_iff_forall_mem.mp opsPos_sub op h,
      List.forall_iff_forall_mem.mp opsNeg_sub op h,
      List.forall_iff_forall_mem.mp opsLogit_sub op h,
      List.forall_iff_forall_mem.mp opsLsm_sub op h,
      List.forall_iff_forall_mem.mp opsTotal_sub op h]

/-! ## What each stage leaves

Each lemma is over ANY contents `W` before the stage: the stage's result buffer ends at the stage's pure term of the
buffers it reads, and a buffer the stage does not write keeps its contents. -/

/-- Two lines run in a row: the contents after the second, from the contents after the first. -/
theorem after_stages : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_stages l₁ l₂]

-- the reductions, the gather and the concatenations stay folded: the equations below never look inside them
attribute [local irreducible] Host.reduce Host.reduceAdd Host.gather concatenate

theorem rows_v2 (W : Valuation τ sig (Elt F)) :
    after opsRows W (main_v2 : DevRef τ sig) = rowsArr (W (main_arg0 : DevRef τ sig)) (W (main_arg1 : DevRef τ sig)) := by
  after_results_simp <;> rfl

theorem rows_c (W : Valuation τ sig (Elt F)) :
    after opsRows W (main_c : DevRef τ sig) = fun i => lit0 (S4x2.rowMajor i) := by
  after_results_simp <;> rfl

theorem sim_v8 (W : Valuation τ sig (Elt F)) : after opsSim W (main_v8 : DevRef τ sig) = simArr (W (main_v2 : DevRef τ sig)) := by
  after_results_simp <;> rfl

theorem sim_c (W : Valuation τ sig (Elt F)) : after opsSim W (main_c : DevRef τ sig) = W (main_c : DevRef τ sig) := by
  after_results_simp <;> rfl

theorem pos_v21 (W : Valuation τ sig (Elt F)) : after opsPos W (main_v21 : DevRef τ sig) = posArr (W (main_v8 : DevRef τ sig)) := by
  after_results_simp <;> rfl

theorem pos_v8 (W : Valuation τ sig (Elt F)) : after opsPos W (main_v8 : DevRef τ sig) = W (main_v8 : DevRef τ sig) := by
  after_results_simp <;> rfl

theorem pos_c (W : Valuation τ sig (Elt F)) : after opsPos W (main_c : DevRef τ sig) = W (main_c : DevRef τ sig) := by
  after_results_simp <;> rfl

/-- The negatives, once the table's buffer holds the table. -/
theorem neg_v23 (W : Valuation τ sig (Elt F)) (hc : W (main_c : DevRef τ sig) = fun i => lit0 (S4x2.rowMajor i)) :
    after opsNeg W (main_v23 : DevRef τ sig) = negArr (W (main_v8 : DevRef τ sig)) := by
  after_results_simp
  simp only [TRef.ofBuf, TRef.toBuf, cast_eq]
  rw [hc]
  rfl

theorem neg_v21 (W : Valuation τ sig (Elt F)) : after opsNeg W (main_v21 : DevRef τ sig) = W (main_v21 : DevRef τ sig) := by
  after_results_simp <;> rfl

theorem logit_v27 (W : Valuation τ sig (Elt F)) :
    after opsLogit W (main_v27 : DevRef τ sig) = logitArr (W (main_v21 : DevRef τ sig)) (W (main_v23 : DevRef τ sig)) := by
  after_results_simp <;> rfl

theorem lsm_v28 (W : Valuation τ sig (Elt F)) : after opsLsm W (main_v28 : DevRef τ sig) = lsmArr (W (main_v27 : DevRef τ sig)) := by
  after_results_simp <;> rfl

theorem total_v33 (W : Valuation τ sig (Elt F)) : after opsTotal W (main_v33 : DevRef τ sig) = totalArr (W (main_v28 : DevRef τ sig)) := by
  after_results_simp <;> rfl

/-! ## The whole line -/

/-- The result buffer after the whole line: the stages' terms composed. -/
theorem out_eq (V : Valuation τ sig (Elt F)) :
    after ops V (main_v33 : DevRef τ sig) = refVal (V (main_arg0 : DevRef τ sig)) (V (main_arg1 : DevRef τ sig)) := by
  have hc : after opsPos (after opsSim (after opsRows V)) (main_c : DevRef τ sig) = fun i => lit0 (S4x2.rowMajor i) := by
    rw [pos_c, sim_c, rows_c]
  simp only [ops, after_stages]
  rw [total_v33, lsm_v28, logit_v27, neg_v23 _ hc, neg_v21, pos_v21, pos_v8, sim_v8, rows_v2]
  rfl

set_option maxRecDepth 8192 in
/-- No operation writes an argument. -/
theorem arg0_eq (V : Valuation τ sig (Elt F)) : after ops V (main_arg0 : DevRef τ sig) = V (main_arg0 : DevRef τ sig) := by
  simp only [ops, after_stages]
  after_results_simp

set_option maxRecDepth 8192 in
theorem arg1_eq (V : Valuation τ sig (Elt F)) : after ops V (main_arg1 : DevRef τ sig) = V (main_arg1 : DevRef τ sig) := by
  simp only [ops, after_stages]
  after_results_simp

/-! ## The run -/

/-- On the device, for any float values, from any memory with zero counters: every weakly fair execution of @main
    terminates with the result buffer at `refVal` of the two arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = refVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v33).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.Hand

end
-- ==== Proof.RefRead.lean ====
/-
  The reference's term, read at the ideal instance, is the reference's closed form of the batch of chunks.
-/
import proofs.«136156_j6227702579662_1_alg».proof.Proof.RefTerm
import proofs.«136156_j6227702579662_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Hand

open Cert.ReferenceIdeal Idealize.ShloMosaic
open Idealize.ShloMosaic.ValueIdx

/-! ## Broadcasts read at an index -/

/-- A scalar broadcast to any shape reads the scalar everywhere. -/
theorem bc_scalar {α : Type} {t : Shape} (dims : Fin S_.rank → Fin t.rank) (h : S_.BroadcastsInDim t dims)
    (x : S_.Idx → α) (j : t.Idx) : broadcastInDim t dims h x j = x ix0 :=
  broadcastInDim_apply dims h x j ix0 (fun a => a.elim0)

/-- A per-row value with a kept unit axis reads the row's value. -/
theorem bc_keep {α : Type} (h : S32768x4.BroadcastsInDim S32768x4x1 ![0, 1]) (x : S32768x4.Idx → α)
    (n : Fin 32768) (c : Fin 4) (z : Fin 1) :
    broadcastInDim S32768x4x1 ![0, 1] h x (ix3 n c z) = x (ix2 n c) :=
  broadcastInDim_apply _ h x _ (ix2 n c) (fun a => match a with
    | ⟨0, _⟩ => by show n.val = if (32768 : Nat) = 1 then 0 else n.val; rw [if_neg (by decide)]
    | ⟨1, _⟩ => by show c.val = if (4 : Nat) = 1 then 0 else c.val; rw [if_neg (by decide)])

/-- A per-row column spread along 256 entries reads the row's value. -/
theorem bc_row256 {α : Type} (h : S32768x4x1.BroadcastsInDim S32768x4x256 ![0, 1, 2]) (x : S32768x4x1.Idx → α)
    (n : Fin 32768) (c : Fin 4) (d : Fin 256) :
    broadcastInDim S32768x4x256 ![0, 1, 2] h x (ix3 n c d) = x (ix3 n c (0 : Fin 1)) :=
  broadcastInDim_apply _ h x _ (ix3 n c (0 : Fin 1)) (fun a => match a with
    | ⟨0, _⟩ => by show n.val = if (32768 : Nat) = 1 then 0 else n.val; rw [if_neg (by decide)]
    | ⟨1, _⟩ => by show c.val = if (4 : Nat) = 1 then 0 else c.val; rw [if_neg (by decide)]
    | ⟨2, _⟩ => by show (0 : Nat) = if (1 : Nat) = 1 then 0 else d.val; rw [if_pos rfl])

/-- A per-row column spread along 3 entries reads the row's value. -/
theorem bc_row3 {α : Type} (h : S32768x4x1.BroadcastsInDim S32768x4x3 ![0, 1, 2]) (x : S32768x4x1.Idx → α)
    (n : Fin 32768) (c : Fin 4) (k : Fin 3) :
    broadcastInDim S32768x4x3 ![0, 1, 2] h x (ix3 n c k) = x (ix3 n c (0 : Fin 1)) :=
  broadcastInDim_apply _ h x _ (ix3 n c (0 : Fin 1)) (fun a => match a with
    | ⟨0, _⟩ => by show n.val = if (32768 : Nat) = 1 then 0 else n.val; rw [if_neg (by decide)]
    | ⟨1, _⟩ => by show c.val = if (4 : Nat) = 1 then 0 else c.val; rw [if_neg (by decide)]
    | ⟨2, _⟩ => by show (0 : Nat) = if (1 : Nat) = 1 then 0 else k.val; rw [if_pos rfl])

/-! ## The chunks' rows -/

/-- Row `c` of chunk `n`: rows `2n`, `2n + 1` of the second argument, then of the first. -/
theorem rowsArr_apply (a0 a1 : FVec Ideal S65536x256 .f32) (n : Fin 32768) (c : Fin 4) (d : Fin 256) :
    rowsArr (F := Ideal) a0 a1 (ix3 n c d) = Cert.Spec.reps a0 a1 n c d := by
  unfold rowsArr Cert.Spec.reps
  by_cases hc : c.val < 2
  · rw [dif_pos hc]
    refine (concatenate_pair_apply_left (s₁ := S32768x2x256) (s₂ := S32768x2x256) (1 : Fin 3) _ _ _ (ix3 n c d) rfl (ix3 n (⟨c.val, hc⟩ : Fin 2) d)
      (fun b => match b with | ⟨0, _⟩ => rfl | ⟨1, _⟩ => rfl | ⟨2, _⟩ => rfl)).trans ?_
    refine shapeCast_apply a1 _ _ (ix2 ⟨2 * n.val + c.val, by have := n.isLt; omega⟩ d) ?_
    rw [Shape.rowMajor_val_two, Shape.rowMajor_val_three]
    show (2 * n.val + c.val) * 256 + d.val = (n.val * 2 + c.val) * 256 + d.val
    omega
  · rw [dif_neg hc]
    have hc4 := c.isLt
    refine (concatenate_pair_apply_right (s₁ := S32768x2x256) (s₂ := S32768x2x256) (1 : Fin 3) _ _ _ (ix3 n c d) rfl rfl (ix3 n (⟨c.val - 2, by omega⟩ : Fin 2) d)
      (fun b => match b with
        | ⟨0, _⟩ => fun _ => rfl
        | ⟨1, _⟩ => fun hb => absurd rfl hb
        | ⟨2, _⟩ => fun _ => rfl)
      (by show (c.val - 2) + 2 = c.val; omega)).trans ?_
    refine shapeCast_apply a0 _ _ (ix2 ⟨2 * n.val + (c.val - 2), by have := n.isLt; omega⟩ d) ?_
    rw [Shape.rowMajor_val_two, Shape.rowMajor_val_three]
    show (2 * n.val + (c.val - 2)) * 256 + d.val = (n.val * 2 + (c.val - 2)) * 256 + d.val
    omega

/-! ## The similarities -/

open Cert.ReferenceIdeal.Facts₀

/-- The host's pointwise operations at an index, at the ideal values. -/
theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl
theorem hostNegf_apply {s : Shape} (x : FVec Ideal s .f32) (i : s.Idx) : Host.negf x i = -(x i) := rfl

/-- A sum along the 256 entries of a row, from the zero word. -/
theorem rowSum256 (Y : FVec Ideal S32768x4x256 .f32) (h' : S32768x4x256.ReducesTo [2] S32768x4) (hu : 0 < S_.numel)
    (n : Fin 32768) (c : Fin 4) :
    Host.reduceAdd (F := Ideal) Y (constant (F := Ideal) S_ .f32 0x00000000#32) h' hu (ix2 n c)
      = ∑ d : Fin 256, Y (ix3 n c d) := by
  simp only [Host.reduceAdd, Ideal.hostReduceAdd_def]
  rw [Ideal.hostReduceAdd_single h' (by decide)]
  rw [constant_apply, Ideal.ofBits_zero_f32, zero_add]
  refine Finset.sum_congr rfl fun d _ => ?_
  exact congrArg Y (funext fun a => Fin.ext (by match a with | ⟨0, _⟩ => rfl | ⟨1, _⟩ => rfl | ⟨2, _⟩ => rfl))

/-- The rows over their clamped norms, as the program forms them. -/
def unitArr (v2 : FVec Ideal S32768x4x256 .f32) : FVec Ideal S32768x4x256 .f32 :=
  Host.divf v2 (broadcastInDim S32768x4x256 ![0, 1, 2] bcast_S32768x4x1_S32768x4x256_0_1_2
    (maximumf (Host.sqrt (broadcastInDim S32768x4x1 ![0, 1] bcast_S32768x4_S32768x4x1_0_1
        (Host.reduceAdd (mulf v2 v2) (constant (F := Ideal) S_ .f32 0x00000000#32) reducesTo_S32768x4x256_S32768x4_d2 h_S_)))
      (broadcastInDim S32768x4x1 ![] bcast_S_S32768x4x1 (constant (F := Ideal) S_ .f32 0x322BCC77#32))))

/-- Entry `d` of row `c` of chunk `n`, normalized. -/
theorem unitArr_apply (X : FVec Ideal S32768x4x256 .f32) (n : Fin 32768) (c : Fin 4) (d : Fin 256) :
    unitArr X (ix3 n c d) = Cert.Spec.unit (fun c d => X (ix3 n c d)) c d := by
  unfold unitArr Cert.Spec.unit Cert.Spec.nrm
  rw [hostDivf_apply, bc_row256, maximumf_apply, hostSqrt_apply, bc_keep, bc_scalar, constant_apply, rowSum256]
  rfl

theorem simArr_eq (X : FVec Ideal S32768x4x256 .f32) :
    simArr (F := Ideal) X
      = Host.dotGeneral (F := Ideal) dot_S32768x4x256_S32768x4x256_S32768x4x4_2_2_1_1_0_0 none (unitArr X) (unitArr X) := rfl

/-! The operand coordinates of the batched product: the chunk is the batch axis, the row the free axis, the entry the
    contracted one. -/
theorem lhs_sim_0 (i : S32768x4x4.Idx) (q : dot_S32768x4x256_S32768x4x256_S32768x4x4_2_2_1_1_0_0.contr.Idx) :
    (dot_S32768x4x256_S32768x4x256_S32768x4x4_2_2_1_1_0_0.lhsIdx i q 0).val = (i 0).val := by
  unfold DotDims.lhsIdx
  rw [dif_pos (show (0 : Fin S32768x4x256.rank) ∈ dot_S32768x4x256_S32768x4x256_S32768x4x4_2_2_1_1_0_0.lhsBatch by decide)]
  rfl
theorem lhs_sim_1 (i : S32768x4x4.Idx) (q : dot_S32768x4x256_S32768x4x256_S32768x4x4_2_2_1_1_0_0.contr.Idx) :
    (dot_S32768x4x256_S32768x4x256_S32768x4x4_2_2_1_1_0_0.lhsIdx i q 1).val = (i 1).val := by
  unfold DotDims.lhsIdx
  rw [dif_neg (show ¬(1 : Fin S32768x4x256.rank) ∈ dot_S32768x4x256_S32768x4x256_S32768x4x4_2_2_1_1_0_0.lhsBatch by decide),
    dif_pos (show (1 : Fin S32768x4x256.rank) ∈ dot_S32768x4x256_S32768x4x256_S32768x4x4_2_2_1_1_0_0.lhsNonContracting by decide)]
  rfl
theorem lhs_sim_2 (i : S32768x4x4.Idx) (q : dot_S32768x4x256_S32768x4x256_S32768x4x4_2_2_1_1_0_0.contr.Idx) :
    (dot_S32768x4x256_S32768x4x256_S32768x4x4_2_2_1_1_0_0.lhsIdx i q 2).val = (q ⟨0, by decide⟩).val :=
  dot_S32768x4x256_S32768x4x256_S32768x4x4_2_2_1_1_0_0.lhsIdx_val_of_single rfl i q
theorem rhs_sim_0 (i : S32768x4x4.Idx) (q : dot_S32768x4x256_S32768x4x256_S32768x4x4_2_2_1_1_0_0.contr.Idx) :
    (dot_S32768x4x256_S32768x4x256_S32768x4x4_2_2_1_1_0_0.rhsIdx i q 0).val = (i 0).val := by
  unfold DotDims.rhsIdx
  rw [dif_pos (show (0 : Fin S32768x4x256.rank) ∈ dot_S32768x4x256_S32768x4x256_S32768x4x4_2_2_1_1_0_0.rhsBatch by decide)]
  rfl
theorem rhs_sim_1 (i : S32768x4x4.Idx) (q : dot_S32768x4x256_S32768x4x256_S32768x4x4_2_2_1_1_0_0.contr.Idx) :
    (dot_S32768x4x256_S32768x4x256_S32768x4x4_2_2_1_1_0_0.rhsIdx i q 1).val = (i 2).val := by
  unfold DotDims.rhsIdx
  rw [dif_neg (show ¬(1 : Fin S32768x4x256.rank) ∈ dot_S32768x4x256_S32768x4x256_S32768x4x4_2_2_1_1_0_0.rhsBatch by decide),
    dif_pos (show (1 : Fin S32768x4x256.rank) ∈ dot_S32768x4x256_S32768x4x256_S32768x4x4_2_2_1_1_0_0.rhsNonContracting by decide)]
  rfl
theorem rhs_sim_2 (i : S32768x4x4.Idx) (q : dot_S32768x4x256_S32768x4x256_S32768x4x4_2_2_1_1_0_0.contr.Idx) :
    (dot_S32768x4x256_S32768x4x256_S32768x4x4_2_2_1_1_0_0.rhsIdx i q 2).val = (q ⟨0, by decide⟩).val :=
  dot_S32768x4x256_S32768x4x256_S32768x4x4_2_2_1_1_0_0.rhsIdx_val_of_single rfl i q

/-- The batched product of an array of rows with itself: per chunk, the dot products of its rows. -/
theorem dot_apply (Y : FVec Ideal S32768x4x256 .f32) (n : Fin 32768) (c k : Fin 4) :
    Host.dotGeneral (F := Ideal) dot_S32768x4x256_S32768x4x256_S32768x4x4_2_2_1_1_0_0 none Y Y (ix3 n c k)
      = ∑ d : Fin 256, Y (ix3 n c d) * Y (ix3 n k d) := by
  simp only [Host.dotGeneral]
  rw [Ideal.dotGeneral_apply,
    ← Equiv.sum_comp (contrEquiv1 dot_S32768x4x256_S32768x4x256_S32768x4x4_2_2_1_1_0_0 256 rfl rfl).symm]
  refine Finset.sum_congr rfl fun d _ => ?_
  have hk := contrEquiv1_symm_val dot_S32768x4x256_S32768x4x256_S32768x4x4_2_2_1_1_0_0 256 rfl rfl d
  have el : dot_S32768x4x256_S32768x4x256_S32768x4x4_2_2_1_1_0_0.lhsIdx (ix3 n c k)
      ((contrEquiv1 dot_S32768x4x256_S32768x4x256_S32768x4x4_2_2_1_1_0_0 256 rfl rfl).symm d) = ix3 n c d :=
    funext fun a => Fin.ext (by
      match a with
      | ⟨0, _⟩ => exact lhs_sim_0 _ _
      | ⟨1, _⟩ => exact lhs_sim_1 _ _
      | ⟨2, _⟩ => exact (lhs_sim_2 _ _).trans hk)
  have er : dot_S32768x4x256_S32768x4x256_S32768x4x4_2_2_1_1_0_0.rhsIdx (ix3 n c k)
      ((contrEquiv1 dot_S32768x4x256_S32768x4x256_S32768x4x4_2_2_1_1_0_0 256 rfl rfl).symm d) = ix3 n k d :=
    funext fun a => Fin.ext (by
      match a with
      | ⟨0, _⟩ => exact rhs_sim_0 _ _
      | ⟨1, _⟩ => exact rhs_sim_1 _ _
      | ⟨2, _⟩ => exact (rhs_sim_2 _ _).trans hk)
  rw [el, er]

/-- Entry `(c, k)` of chunk `n`'s similarities. -/
theorem simArr_apply (X : FVec Ideal S32768x4x256 .f32) (n : Fin 32768) (c k : Fin 4) :
    simArr (F := Ideal) X (ix3 n c k) = Cert.Spec.sim (fun c d => X (ix3 n c d)) c k := by
  rw [simArr_eq, dot_apply]
  unfold Cert.Spec.sim
  refine Finset.sum_congr rfl fun d _ => ?_
  rw [unitArr_apply, unitArr_apply]

/-! ## The positives -/

/-- A vector over the chunks made a one-entry column reads the chunk's value. -/
theorem bc_col1 {α : Type} (h : S32768.BroadcastsInDim S32768x1 ![0]) (x : S32768.Idx → α) (n : Fin 32768) (z : Fin 1) :
    broadcastInDim S32768x1 ![0] h x (ix2 n z) = x (ix1 n) :=
  broadcastInDim_apply _ h x _ (ix1 n) (fun a => match a with
    | ⟨0, _⟩ => by show n.val = if (32768 : Nat) = 1 then 0 else n.val; rw [if_neg (by decide)])

/-- One entry `(r, k)` of every chunk's similarities, cut out, flattened and made a column. -/
theorem pick_apply {α : Type} (S : S32768x4x4.Idx → α) (r k : Nat) (hr : r < 4) (hk : k < 4)
    (hs : S32768x4x4.Slices ![0, r, k] S32768x1x1) (hc : S32768x1x1.ShapeCasts S32768)
    (hb : S32768.BroadcastsInDim S32768x1 ![0]) (n : Fin 32768) (z : Fin 1) :
    broadcastInDim S32768x1 ![0] hb (shapeCast S32768 (extractStridedSlice S32768x1x1 ![0, r, k] S hs) hc) (ix2 n z)
      = S (ix3 n (⟨r, hr⟩ : Fin 4) (⟨k, hk⟩ : Fin 4)) := by
  rw [bc_col1]
  refine (shapeCast_apply _ hc (ix1 n) (ix3 n (0 : Fin 1) (0 : Fin 1)) ?_).trans ?_
  · rw [Shape.rowMajor_val_three, Shape.rowMajor_val_one]
    show (n.val * 1 + 0) * 1 + 0 = n.val
    omega
  · exact extractStridedSlice_apply _ S hs _ (ix3 n (⟨r, hr⟩ : Fin 4) (⟨k, hk⟩ : Fin 4)) (fun a => match a with
      | ⟨0, _⟩ => by show n.val = 0 + n.val; omega
      | ⟨1, _⟩ => by show r = r + 0; omega
      | ⟨2, _⟩ => by show k = k + 0; omega)

/-- Row `c`'s positive is its similarity with the row two places on, cyclically. -/
theorem posArr_apply (S : FVec Ideal S32768x4x4 .f32) (n : Fin 32768) (c : Fin 4) :
    posArr (F := Ideal) S (ix2 n c) = S (ix3 n c (Cert.Spec.pos c)) := by
  unfold posArr
  match c with
  | ⟨0, _⟩ =>
    refine (concatenate_apply_piece (1 : Fin 2) _ _ (ix2 n (0 : Fin 4)) 0 (by show (0 : Nat) < 4; decide) S32768x1 _ rfl rfl 0 rfl
      (ix2 n (0 : Fin 1)) (fun b => match b with | ⟨0, _⟩ => fun _ => rfl | ⟨1, _⟩ => fun hb => absurd rfl hb) rfl).trans ?_
    exact pick_apply S 0 2 (by decide) (by decide) _ _ _ n 0
  | ⟨1, _⟩ =>
    refine (concatenate_apply_piece (1 : Fin 2) _ _ (ix2 n (1 : Fin 4)) 1 (by show (1 : Nat) < 4; decide) S32768x1 _ rfl rfl 1 rfl
      (ix2 n (0 : Fin 1)) (fun b => match b with | ⟨0, _⟩ => fun _ => rfl | ⟨1, _⟩ => fun hb => absurd rfl hb) rfl).trans ?_
    exact pick_apply S 1 3 (by decide) (by decide) _ _ _ n 0
  | ⟨2, _⟩ =>
    refine (concatenate_apply_piece (1 : Fin 2) _ _ (ix2 n (2 : Fin 4)) 2 (by show (2 : Nat) < 4; decide) S32768x1 _ rfl rfl 2 rfl
      (ix2 n (0 : Fin 1)) (fun b => match b with | ⟨0, _⟩ => fun _ => rfl | ⟨1, _⟩ => fun hb => absurd rfl hb) rfl).trans ?_
    exact pick_apply S 2 0 (by decide) (by decide) _ _ _ n 0
  | ⟨3, _⟩ =>
    refine (concatenate_apply_piece (1 : Fin 2) _ _ (ix2 n (3 : Fin 4)) 3 (by show (3 : Nat) < 4; decide) S32768x1 _ rfl rfl 3 rfl
      (ix2 n (0 : Fin 1)) (fun b => match b with | ⟨0, _⟩ => fun _ => rfl | ⟨1, _⟩ => fun hb => absurd rfl hb) rfl).trans ?_
    exact pick_apply S 3 1 (by decide) (by decide) _ _ _ n 0

/-! ## The negatives -/

/-- The table of admissible indices is all ones. -/
theorem negOk_eq : ∀ (c : Fin 4) (j : Fin 2), negOk (ix2 c j) = 1#1 := by decide

/-- The column each table entry names, read signed and clamped into the row: the row's first or second negative. -/
theorem negCol_eq : ∀ (c : Fin 4) (j : Fin 2),
    min (negIdx (ix3 c j (0 : Fin 1))).toInt.toNat 3 = (if j = 0 then Cert.Spec.neg0 c else Cert.Spec.neg1 c).val := by
  decide

/-- A table over rows and places spread over the chunks reads the table. -/
theorem bc_tab {α : Type} (h : S4x2.BroadcastsInDim S32768x4x2 ![1, 2]) (x : S4x2.Idx → α)
    (n : Fin 32768) (c : Fin 4) (j : Fin 2) :
    broadcastInDim S32768x4x2 ![1, 2] h x (ix3 n c j) = x (ix2 c j) :=
  broadcastInDim_apply _ h x _ (ix2 c j) (fun a => match a with
    | ⟨0, _⟩ => by show c.val = if (4 : Nat) = 1 then 0 else c.val; rw [if_neg (by decide)]
    | ⟨1, _⟩ => by show j.val = if (2 : Nat) = 1 then 0 else j.val; rw [if_neg (by decide)])

/-! The operand coordinates of the gather: the chunk is the offset axis, the row the batching axis, and the column is the
    start index the table gives, clamped into the row. -/
theorem gat_0 (idx : IVec S4x2x1 32) (i : S32768x4x2.Idx) :
    (gather_S32768x4x4_S4x2x1_S32768x4x2_0_2_1_0_2_2_3276811.operandIdx i idx 0).val = (i 0).val := by
  show gather_S32768x4x4_S4x2x1_S32768x4x2_0_2_1_0_2_2_3276811.start i idx 0
    + gather_S32768x4x4_S4x2x1_S32768x4x2_0_2_1_0_2_2_3276811.batchCoord i 0
    + gather_S32768x4x4_S4x2x1_S32768x4x2_0_2_1_0_2_2_3276811.offCoord i 0 = _
  have h1 : gather_S32768x4x4_S4x2x1_S32768x4x2_0_2_1_0_2_2_3276811.start i idx 0 = 0 := by
    unfold GatherDims.start
    rw [dif_neg (show ¬(0 : Fin S32768x4x4.rank) ∈ gather_S32768x4x4_S4x2x1_S32768x4x2_0_2_1_0_2_2_3276811.startIndexMap by decide)]
  have h2 : gather_S32768x4x4_S4x2x1_S32768x4x2_0_2_1_0_2_2_3276811.batchCoord i 0 = 0 :=
    GatherDims.batchCoord_eq_zero _ _ _ (by decide)
  have h3 : gather_S32768x4x4_S4x2x1_S32768x4x2_0_2_1_0_2_2_3276811.offCoord i 0 = (i 0).val := by
    unfold GatherDims.offCoord
    rw [dif_pos (show (0 : Fin S32768x4x4.rank) ∈ gather_S32768x4x4_S4x2x1_S32768x4x2_0_2_1_0_2_2_3276811.sKept by decide)]
    rfl
  rw [h1, h2, h3]
  omega
theorem gat_1 (idx : IVec S4x2x1 32) (i : S32768x4x2.Idx) :
    (gather_S32768x4x4_S4x2x1_S32768x4x2_0_2_1_0_2_2_3276811.operandIdx i idx 1).val = (i 1).val := by
  show gather_S32768x4x4_S4x2x1_S32768x4x2_0_2_1_0_2_2_3276811.start i idx 1
    + gather_S32768x4x4_S4x2x1_S32768x4x2_0_2_1_0_2_2_3276811.batchCoord i 1
    + gather_S32768x4x4_S4x2x1_S32768x4x2_0_2_1_0_2_2_3276811.offCoord i 1 = _
  have h1 : gather_S32768x4x4_S4x2x1_S32768x4x2_0_2_1_0_2_2_3276811.start i idx 1 = 0 :=
    GatherDims.start_batching _ _ _ _ (by decide)
  have h2 : gather_S32768x4x4_S4x2x1_S32768x4x2_0_2_1_0_2_2_3276811.batchCoord i 1 = (i 1).val := by
    unfold GatherDims.batchCoord
    rw [dif_pos (show (1 : Fin S32768x4x4.rank) ∈ gather_S32768x4x4_S4x2x1_S32768x4x2_0_2_1_0_2_2_3276811.operandBatchingDims by decide)]
    rfl
  have h3 : gather_S32768x4x4_S4x2x1_S32768x4x2_0_2_1_0_2_2_3276811.offCoord i 1 = 0 :=
    GatherDims.offCoord_eq_zero _ _ _ (by decide)
  rw [h1, h2, h3]
  omega
theorem gat_2 (idx : IVec S4x2x1 32) (n : Fin 32768) (c : Fin 4) (j : Fin 2) :
    (gather_S32768x4x4_S4x2x1_S32768x4x2_0_2_1_0_2_2_3276811.operandIdx (ix3 n c j) idx 2).val
      = min (idx (ix3 c j (0 : Fin 1))).toInt.toNat 3 := by
  show gather_S32768x4x4_S4x2x1_S32768x4x2_0_2_1_0_2_2_3276811.start (ix3 n c j) idx 2
    + gather_S32768x4x4_S4x2x1_S32768x4x2_0_2_1_0_2_2_3276811.batchCoord (ix3 n c j) 2
    + gather_S32768x4x4_S4x2x1_S32768x4x2_0_2_1_0_2_2_3276811.offCoord (ix3 n c j) 2 = _
  have h2 : gather_S32768x4x4_S4x2x1_S32768x4x2_0_2_1_0_2_2_3276811.batchCoord (ix3 n c j) 2 = 0 :=
    GatherDims.batchCoord_eq_zero _ _ _ (by decide)
  have h3 : gather_S32768x4x4_S4x2x1_S32768x4x2_0_2_1_0_2_2_3276811.offCoord (ix3 n c j) 2 = 0 :=
    GatherDims.offCoord_eq_zero _ _ _ (by decide)
  have h1 : gather_S32768x4x4_S4x2x1_S32768x4x2_0_2_1_0_2_2_3276811.start (ix3 n c j) idx 2
      = min (idx (ix3 c j (0 : Fin 1))).toInt.toNat 3 := by
    unfold GatherDims.start
    rw [dif_pos (show (2 : Fin S32768x4x4.rank) ∈ gather_S32768x4x4_S4x2x1_S32768x4x2_0_2_1_0_2_2_3276811.startIndexMap by decide)]
    have hsi : gather_S32768x4x4_S4x2x1_S32768x4x2_0_2_1_0_2_2_3276811.siIdx (ix3 n c j)
        ⟨List.idxOf (2 : Fin S32768x4x4.rank) gather_S32768x4x4_S4x2x1_S32768x4x2_0_2_1_0_2_2_3276811.startIndexMap,
          List.idxOf_lt_length_iff.2 (show (2 : Fin S32768x4x4.rank) ∈ gather_S32768x4x4_S4x2x1_S32768x4x2_0_2_1_0_2_2_3276811.startIndexMap by decide)⟩
        = ix3 c j (0 : Fin 1) := by
      funext b; refine Fin.ext ?_
      match b with
      | ⟨0, _⟩ => rfl
      | ⟨1, _⟩ => rfl
      | ⟨2, _⟩ => rfl
    rw [hsi]
    rfl
  rw [h1, h2, h3]
  omega

/-- Row `c`'s two negatives are its similarities with the two rows of the other parity. -/
theorem negArr_apply (S : FVec Ideal S32768x4x4 .f32) (n : Fin 32768) (c : Fin 4) (j : Fin 2) :
    negArr (F := Ideal) S (ix3 n c j)
      = S (ix3 n c (if j = 0 then Cert.Spec.neg0 c else Cert.Spec.neg1 c)) := by
  unfold negArr
  dsimp only
  rw [select_apply, bc_tab, negOk_eq, select_one]
  unfold Host.gather
  refine congrArg S (funext fun a => Fin.ext ?_)
  match a with
  | ⟨0, _⟩ => exact gat_0 _ _
  | ⟨1, _⟩ => exact gat_1 _ _
  | ⟨2, _⟩ => exact (gat_2 _ n c j).trans (negCol_eq c j)

/-! ## The logits -/

/-- The first logit of a row: its positive over the temperature. -/
theorem logitArr_apply_zero (P : FVec Ideal S32768x4 .f32) (N : FVec Ideal S32768x4x2 .f32) (n : Fin 32768) (c : Fin 4) :
    logitArr (F := Ideal) P N (ix3 n c (0 : Fin 3)) = Ideal.div (P (ix2 n c)) Cert.Spec.half := by
  unfold logitArr
  dsimp only
  rw [hostDivf_apply, bc_scalar, constant_apply]
  refine congrArg (Ideal.div · _) ?_
  refine (concatenate_pair_apply_left (s₁ := S32768x4x1) (s₂ := S32768x4x2) (2 : Fin 3) _ _ _ (ix3 n c (0 : Fin 3)) rfl
    (ix3 n c (0 : Fin 1)) (fun b => match b with | ⟨0, _⟩ => rfl | ⟨1, _⟩ => rfl | ⟨2, _⟩ => rfl)).trans ?_
  exact bc_keep _ P n c 0

/-- The second logit of a row: its first negative over the temperature. -/
theorem logitArr_apply_one (P : FVec Ideal S32768x4 .f32) (N : FVec Ideal S32768x4x2 .f32) (n : Fin 32768) (c : Fin 4) :
    logitArr (F := Ideal) P N (ix3 n c (1 : Fin 3)) = Ideal.div (N (ix3 n c (0 : Fin 2))) Cert.Spec.half := by
  unfold logitArr
  dsimp only
  rw [hostDivf_apply, bc_scalar, constant_apply]
  refine congrArg (Ideal.div · _) ?_
  exact concatenate_pair_apply_right (s₁ := S32768x4x1) (s₂ := S32768x4x2) (2 : Fin 3) _ _ _ (ix3 n c (1 : Fin 3)) rfl rfl
    (ix3 n c (0 : Fin 2)) (fun b => match b with
      | ⟨0, _⟩ => fun _ => rfl
      | ⟨1, _⟩ => fun _ => rfl
      | ⟨2, _⟩ => fun hb => absurd rfl hb) rfl

/-- The third logit of a row: its second negative over the temperature. -/
theorem logitArr_apply_two (P : FVec Ideal S32768x4 .f32) (N : FVec Ideal S32768x4x2 .f32) (n : Fin 32768) (c : Fin 4) :
    logitArr (F := Ideal) P N (ix3 n c (2 : Fin 3)) = Ideal.div (N (ix3 n c (1 : Fin 2))) Cert.Spec.half := by
  unfold logitArr
  dsimp only
  rw [hostDivf_apply, bc_scalar, constant_apply]
  refine congrArg (Ideal.div · _) ?_
  exact concatenate_pair_apply_right (s₁ := S32768x4x1) (s₂ := S32768x4x2) (2 : Fin 3) _ _ _ (ix3 n c (2 : Fin 3)) rfl rfl
    (ix3 n c (1 : Fin 2)) (fun b => match b with
      | ⟨0, _⟩ => fun _ => rfl
      | ⟨1, _⟩ => fun _ => rfl
      | ⟨2, _⟩ => fun hb => absurd rfl hb) rfl

/-! ## The log-softmax -/

/-- The word of minus infinity is the least extended real. -/
theorem ofBits_neg_inf_f32 : Ideal.ofBits .f32 0xFF800000#32 = ⊥ := by simp [Ideal.ofBits, Ideal.ieee]

/-- The largest of three extended reals, as a fold from the least one. -/
theorem fold_max3 (f : Fin 3 → EReal) :
    (Finset.univ : Finset (Fin 3)).fold max ⊥ f = max (max (f 0) (f 1)) (f 2) := by
  show (Finset.univ : Finset (Fin 3)).sup f = _
  apply le_antisymm
  · refine Finset.sup_le fun k _ => ?_
    match k with
    | ⟨0, _⟩ => exact le_max_of_le_left (le_max_left _ _)
    | ⟨1, _⟩ => exact le_max_of_le_left (le_max_right _ _)
    | ⟨2, _⟩ => exact le_max_right _ _
  · exact max_le (max_le (Finset.le_sup (Finset.mem_univ _)) (Finset.le_sup (Finset.mem_univ _)))
      (Finset.le_sup (Finset.mem_univ _))

/-- The maximum along the 3 entries of a row, from the word of minus infinity. -/
theorem rowMax3 (L : FVec Ideal S32768x4x3 .f32) (h' : S32768x4x3.ReducesTo [2] S32768x4) (hu : 0 < S_.numel)
    (n : Fin 32768) (c : Fin 4) :
    Host.reduce (FloatOps.maximumf (F := Ideal) (φ := .f32)) L (constant (F := Ideal) S_ .f32 0xFF800000#32) h' hu (ix2 n c)
      = max (max (L (ix3 n c (0 : Fin 3))) (L (ix3 n c (1 : Fin 3)))) (L (ix3 n c (2 : Fin 3))) := by
  rw [Host.reduce_eq_fold_single _ L _ h' (by decide) hu (ix2 n c), constant_apply, ofBits_neg_inf_f32]
  refine (fold_max3 _).trans ?_
  have e : ∀ k : Fin 3, (Shape.Reduces.lift (by decide : S32768x4x3.Reduces [2] S32768x4) (ix2 n c) k) = ix3 n c k :=
    fun k => funext fun a => Fin.ext (by match a with | ⟨0, _⟩ => rfl | ⟨1, _⟩ => rfl | ⟨2, _⟩ => rfl)
  exact congrArg₂ max (congrArg₂ max (congrArg L (e 0)) (congrArg L (e 1))) (congrArg L (e 2))

/-- A sum along the 3 entries of a row, from the zero word. -/
theorem rowSum3 (Y : FVec Ideal S32768x4x3 .f32) (h' : S32768x4x3.ReducesTo [2] S32768x4) (hu : 0 < S_.numel)
    (n : Fin 32768) (c : Fin 4) :
    Host.reduceAdd (F := Ideal) Y (constant (F := Ideal) S_ .f32 0x00000000#32) h' hu (ix2 n c)
      = Y (ix3 n c (0 : Fin 3)) + Y (ix3 n c (1 : Fin 3)) + Y (ix3 n c (2 : Fin 3)) := by
  simp only [Host.reduceAdd, Ideal.hostReduceAdd_def]
  rw [Ideal.hostReduceAdd_single h' (by decide)]
  rw [constant_apply, Ideal.ofBits_zero_f32, zero_add]
  refine (Fin.sum_univ_three _).trans ?_
  have e : ∀ k : Fin 3, (Shape.Reduces.lift (by decide : S32768x4x3.Reduces [2] S32768x4) (ix2 n c) k) = ix3 n c k :=
    fun k => funext fun a => Fin.ext (by match a with | ⟨0, _⟩ => rfl | ⟨1, _⟩ => rfl | ⟨2, _⟩ => rfl)
  simp only [e]

/-- The row's entries less the row's largest, as the program forms them. -/
def shiftArr (L : FVec Ideal S32768x4x3 .f32) : FVec Ideal S32768x4x3 .f32 :=
  subf L (broadcastInDim S32768x4x3 ![0, 1, 2] bcast_S32768x4x1_S32768x4x3_0_1_2
    (broadcastInDim S32768x4x1 ![0, 1] bcast_S32768x4_S32768x4x1_0_1
      (maximumf (broadcastInDim S32768x4 ![] bcast_S_S32768x4 (constant (F := Ideal) S_ .f32 0xFF800000#32))
        (Host.reduce FloatOps.maximumf L (constant (F := Ideal) S_ .f32 0xFF800000#32) reducesTo_S32768x4x3_S32768x4_d2 h_S_))))

theorem shiftArr_apply (L : FVec Ideal S32768x4x3 .f32) (n : Fin 32768) (c : Fin 4) (k : Fin 3) :
    shiftArr L (ix3 n c k)
      = L (ix3 n c k) - max (max (L (ix3 n c (0 : Fin 3))) (L (ix3 n c (1 : Fin 3)))) (L (ix3 n c (2 : Fin 3))) := by
  unfold shiftArr
  rw [subf_apply, bc_row3, bc_keep, maximumf_apply, bc_scalar, constant_apply, rowMax3, ofBits_neg_inf_f32,
    max_eq_right bot_le]

theorem lsmArr_eq (L : FVec Ideal S32768x4x3 .f32) :
    lsmArr (F := Ideal) L
      = subf (shiftArr L) (broadcastInDim S32768x4x3 ![0, 1, 2] bcast_S32768x4x1_S32768x4x3_0_1_2
          (Host.log (broadcastInDim S32768x4x1 ![0, 1] bcast_S32768x4_S32768x4x1_0_1
            (Host.reduceAdd (Host.exp (shiftArr L)) (constant (F := Ideal) S_ .f32 0x00000000#32)
              reducesTo_S32768x4x3_S32768x4_d2 h_S_)))) := rfl

/-- Entry `k` of a row's log-softmax: the entry less the largest, less the logarithm of the sum of the exponentials of
    the three entries less the largest. -/
theorem lsmArr_apply (L : FVec Ideal S32768x4x3 .f32) (n : Fin 32768) (c : Fin 4) (k : Fin 3) :
    lsmArr (F := Ideal) L (ix3 n c k)
      = (L (ix3 n c k) - max (max (L (ix3 n c (0 : Fin 3))) (L (ix3 n c (1 : Fin 3)))) (L (ix3 n c (2 : Fin 3))))
        - Ideal.log (Ideal.exp (L (ix3 n c (0 : Fin 3)) - max (max (L (ix3 n c (0 : Fin 3))) (L (ix3 n c (1 : Fin 3)))) (L (ix3 n c (2 : Fin 3))))
            + Ideal.exp (L (ix3 n c (1 : Fin 3)) - max (max (L (ix3 n c (0 : Fin 3))) (L (ix3 n c (1 : Fin 3)))) (L (ix3 n c (2 : Fin 3))))
            + Ideal.exp (L (ix3 n c (2 : Fin 3)) - max (max (L (ix3 n c (0 : Fin 3))) (L (ix3 n c (1 : Fin 3)))) (L (ix3 n c (2 : Fin 3))))) := by
  rw [lsmArr_eq, subf_apply, bc_row3, hostLog_apply, bc_keep, rowSum3, hostExp_apply, hostExp_apply, hostExp_apply,
    shiftArr_apply, shiftArr_apply, shiftArr_apply, shiftArr_apply]

/-! ## The total -/

/-- A sum over all chunks and rows, from the zero word. -/
theorem totalSum (W : FVec Ideal S32768x4 .f32) (h' : S32768x4.ReducesTo [0, 1] S_) (hu : 0 < S_.numel) (j : S_.Idx) :
    Host.reduceAdd (F := Ideal) W (constant (F := Ideal) S_ .f32 0x00000000#32) h' hu j
      = ∑ n : Fin 32768, ∑ c : Fin 4, W (ix2 n c) := by
  simp only [Host.reduceAdd, Ideal.hostReduceAdd_def]
  rw [Ideal.hostReduceAdd_total h' (fun b => b.elim0), constant_apply, Ideal.ofBits_zero_f32, zero_add, sum_idx2]

/-- Minus the first entry of a row, cut out and flattened. -/
theorem negFirst_apply (Z : FVec Ideal S32768x4x3 .f32) (hs : S32768x4x3.Slices ![0, 0, 0] S32768x4x1)
    (hc : S32768x4x1.ShapeCasts S32768x4) (n : Fin 32768) (c : Fin 4) :
    Host.negf (F := Ideal) (shapeCast S32768x4 (extractStridedSlice S32768x4x1 ![0, 0, 0] Z hs) hc) (ix2 n c)
      = -(Z (ix3 n c (0 : Fin 3))) := by
  rw [hostNegf_apply]
  refine congrArg Neg.neg ?_
  refine (shapeCast_apply _ hc (ix2 n c) (ix3 n c (0 : Fin 1)) ?_).trans ?_
  · rw [Shape.rowMajor_val_three, Shape.rowMajor_val_two]
    show (n.val * 4 + c.val) * 1 + 0 = n.val * 4 + c.val
    omega
  · exact extractStridedSlice_apply _ Z hs _ (ix3 n c (0 : Fin 3)) (fun a => match a with
      | ⟨0, _⟩ => by show n.val = 0 + n.val; omega
      | ⟨1, _⟩ => by show c.val = 0 + c.val; omega
      | ⟨2, _⟩ => by show (0 : Nat) = 0 + 0; rfl)

/-- Minus the first entry of every row, added over all chunks and rows, over 65536. -/
theorem totalArr_apply (Z : FVec Ideal S32768x4x3 .f32) (j : S_.Idx) :
    totalArr (F := Ideal) Z j
      = Ideal.div (∑ n : Fin 32768, ∑ c : Fin 4, -(Z (ix3 n c (0 : Fin 3)))) Cert.Spec.big := by
  unfold totalArr
  dsimp only
  rw [hostDivf_apply, constant_apply, totalSum]
  simp only [negFirst_apply]

/-! ## The whole term -/

/-- Row `c` of chunk `n`: minus the first entry of its log-softmax is the reference's loss of the row. -/
theorem loss_apply (a0 a1 : FVec Ideal S65536x256 .f32) (n : Fin 32768) (c : Fin 4) :
    -(lsmArr (F := Ideal) (logitArr (posArr (simArr (rowsArr a0 a1))) (negArr (simArr (rowsArr a0 a1))))
        (ix3 n c (0 : Fin 3)))
      = Cert.Spec.lossR (Cert.Spec.reps a0 a1 n) c := by
  have hrows : (fun c d => rowsArr (F := Ideal) a0 a1 (ix3 n c d)) = Cert.Spec.reps a0 a1 n :=
    funext fun c => funext fun d => rowsArr_apply a0 a1 n c d
  rw [lsmArr_apply, logitArr_apply_zero, logitArr_apply_one, logitArr_apply_two, posArr_apply, negArr_apply, negArr_apply,
    simArr_apply, simArr_apply, simArr_apply, hrows, if_pos rfl, if_neg (by decide)]
  simp only [Cert.Spec.lossR, Cert.Spec.top, Cert.Spec.logit]

theorem refVal_eq (a0 a1 : FVec Ideal S65536x256 .f32) :
    refVal (F := Ideal) a0 a1 = fun _ => Cert.Spec.Rres (Cert.Spec.reps a0 a1) := by
  funext j
  unfold refVal
  rw [totalArr_apply]
  unfold Cert.Spec.Rres
  simp only [loss_apply]

end Cert.ReferenceIdeal.Hand

end
-- ==== Proof.Algebra.lean ====
/-
  The two closed forms are one number when every entry is a real.
-/
import proofs.«136156_j6227702579662_1_alg».proof.Proof.Spec

noncomputable section

namespace Cert.Spec

open Idealize.ShloMosaic

/-! ## The literal words -/

/-- The kernel's factor denotes the real `2`. -/
theorem two_eq : two = ((2 : ℝ) : EReal) := by
  simp [two, Ideal.ofBits, Ideal.ieee, -EReal.coe_mul]; norm_num

/-- The reference's divisor denotes the real `1/2`. -/
theorem half_eq : half = ((1 / 2 : ℝ) : EReal) := by
  simp [half, Ideal.ofBits, Ideal.ieee, -EReal.coe_mul]; norm_num

/-- The clamp under the norm denotes a positive real. -/
theorem eps_pos : ∃ e : ℝ, 0 < e ∧ eps = (e : EReal) := by
  simp [eps, Ideal.ofBits, Ideal.ieee, -EReal.coe_mul]

/-! ## Coercion of finite sums and of maxima -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-! ## One chunk of real entries -/

section Chunk

variable (Y : Fin 4 → Fin 256 → EReal)

/-- The similarity is symmetric in its two rows. -/
theorem sim_comm (c k : Fin 4) : sim Y c k = sim Y k c :=
  Finset.sum_congr rfl (fun d _ => mul_comm _ _)

variable (hY : ∀ c d, ∃ r : ℝ, Y c d = (r : EReal))
include hY

/-- The clamped norm of a row of reals is a positive real. -/
theorem nrm_real (c : Fin 4) : ∃ n : ℝ, 0 < n ∧ nrm Y c = (n : EReal) := by
  choose y hy using hY
  obtain ⟨e, he, hee⟩ := eps_pos
  refine ⟨max (Real.sqrt (∑ d : Fin 256, y c d * y c d)) e, lt_max_of_lt_right he, ?_⟩
  have hs : (∑ d : Fin 256, Y c d * Y c d) = ((∑ d : Fin 256, y c d * y c d : ℝ) : EReal) := by
    rw [coe_sum]
    exact Finset.sum_congr rfl (fun d _ => by rw [hy, EReal.coe_mul])
  have hnn : ¬ (∑ d : Fin 256, y c d * y c d) < 0 :=
    not_lt.mpr (Finset.sum_nonneg (fun d _ => mul_self_nonneg _))
  rw [nrm, hs, Ideal.sqrt_coe, if_neg hnn, hee, coe_max]

/-- A normalized entry is a real. -/
theorem unit_real (c : Fin 4) (d : Fin 256) : ∃ u : ℝ, unit Y c d = (u : EReal) := by
  obtain ⟨n, hn, hnn⟩ := nrm_real Y hY c
  obtain ⟨y, hy⟩ := hY c d
  exact ⟨y * (1 / n), by rw [unit, hnn, Ideal.div_coe hn.ne', hy, EReal.coe_mul]⟩

/-- A similarity is a real. -/
theorem sim_real (c k : Fin 4) : ∃ s : ℝ, sim Y c k = (s : EReal) := by
  choose u hu using unit_real Y hY
  refine ⟨∑ d : Fin 256, u c d * u k d, ?_⟩
  rw [coe_sum]
  exact Finset.sum_congr rfl (fun d _ => by rw [hu, hu, EReal.coe_mul])

end Chunk

/-- The reference's form of the cross entropy of logit `a` against `a`, `b`, `c`. -/
def ceR (a b c : EReal) : EReal :=
  -((a - max (max a b) c)
      - Ideal.log (Ideal.exp (a - max (max a b) c) + Ideal.exp (b - max (max a b) c) + Ideal.exp (c - max (max a b) c)))

theorem lossR_eq_ceR (Y : Fin 4 → Fin 256 → EReal) (c : Fin 4) :
    lossR Y c = ceR (logit Y c 0) (logit Y c 1) (logit Y c 2) := rfl

/-- The kernel's cross entropy of three real logits, in the reference's form. -/
theorem ce_real (a b c : ℝ) : ce (a : EReal) (b : EReal) (c : EReal) = ceR (a : EReal) (b : EReal) (c : EReal) := by
  have hpos : ¬ (Real.exp (a - max (max a b) c) + Real.exp (b - max (max a b) c)
      + Real.exp (c - max (max a b) c)) ≤ 0 := not_le.mpr (by positivity)
  rw [ce, ceR, ← coe_max, ← coe_max, ← EReal.coe_sub, ← EReal.coe_sub, ← EReal.coe_sub,
    Ideal.exp_coe, Ideal.exp_coe, Ideal.exp_coe, ← EReal.coe_add, ← EReal.coe_add,
    Ideal.log_coe, if_neg hpos, ← EReal.coe_add, ← EReal.coe_sub, ← EReal.coe_sub, ← EReal.coe_neg]
  congr 1; ring

/-- Twice a real, as the kernel forms it. -/
theorem mul_two (s : ℝ) : (s : EReal) * two = ((s * 2 : ℝ) : EReal) := by
  rw [two_eq, ← EReal.coe_mul]

/-- Twice a real, as the reference forms it. -/
theorem div_half (s : ℝ) : Ideal.div (s : EReal) half = ((s * 2 : ℝ) : EReal) := by
  rw [half_eq, Ideal.div_coe (by norm_num), ← EReal.coe_mul]
  congr 1; norm_num

/-- One row: the kernel's loss of three real similarities is the reference's. -/
theorem row_eq {x0 x1 x2 : EReal} (h0 : ∃ s : ℝ, x0 = (s : EReal)) (h1 : ∃ s : ℝ, x1 = (s : EReal))
    (h2 : ∃ s : ℝ, x2 = (s : EReal)) :
    ce (x0 * two) (x1 * two) (x2 * two) = ceR (Ideal.div x0 half) (Ideal.div x1 half) (Ideal.div x2 half) := by
  obtain ⟨s0, rfl⟩ := h0
  obtain ⟨s1, rfl⟩ := h1
  obtain ⟨s2, rfl⟩ := h2
  rw [mul_two, mul_two, mul_two, div_half, div_half, div_half]
  exact ce_real _ _ _

/-- For a chunk of reals the two losses of each row agree. -/
theorem lossK_eq_lossR (Y : Fin 4 → Fin 256 → EReal) (hY : ∀ c d, ∃ r : ℝ, Y c d = (r : EReal)) (c : Fin 4) :
    lossK Y c = lossR Y c := by
  have hs := sim_real Y hY
  have e0 : lossK Y 0 = lossR Y 0 := by
    show ce (sim Y 0 2 * two) (sim Y 0 1 * two) (sim Y 0 3 * two)
      = ceR (Ideal.div (sim Y 0 2) half) (Ideal.div (sim Y 0 1) half) (Ideal.div (sim Y 0 3) half)
    exact row_eq (hs _ _) (hs _ _) (hs _ _)
  have e1 : lossK Y 1 = lossR Y 1 := by
    show ce (sim Y 1 3 * two) (sim Y 0 1 * two) (sim Y 1 2 * two)
      = ceR (Ideal.div (sim Y 1 3) half) (Ideal.div (sim Y 1 0) half) (Ideal.div (sim Y 1 2) half)
    rw [sim_comm Y 0 1]
    exact row_eq (hs _ _) (hs _ _) (hs _ _)
  have e2 : lossK Y 2 = lossR Y 2 := by
    show ce (sim Y 0 2 * two) (sim Y 1 2 * two) (sim Y 2 3 * two)
      = ceR (Ideal.div (sim Y 2 0) half) (Ideal.div (sim Y 2 1) half) (Ideal.div (sim Y 2 3) half)
    rw [sim_comm Y 0 2, sim_comm Y 1 2]
    exact row_eq (hs _ _) (hs _ _) (hs _ _)
  have e3 : lossK Y 3 = lossR Y 3 := by
    show ce (sim Y 1 3 * two) (sim Y 0 3 * two) (sim Y 2 3 * two)
      = ceR (Ideal.div (sim Y 3 1) half) (Ideal.div (sim Y 3 0) half) (Ideal.div (sim Y 3 2) half)
    rw [sim_comm Y 1 3, sim_comm Y 0 3, sim_comm Y 2 3]
    exact row_eq (hs _ _) (hs _ _) (hs _ _)
  match c with
  | 0 => exact e0
  | 1 => exact e1
  | 2 => exact e2
  | 3 => exact e3

/-! ## Regrouping the sums -/

section Sums

variable {M : Type} [AddCommMonoid M]

/-- A sum over thirty-two blocks, split into its two halves of sixteen. -/
theorem sum_halves (g : Fin 32 → M) :
    (∑ i : Fin 16, g ⟨i.val, by have := i.isLt; omega⟩)
      + (∑ i : Fin 16, g ⟨16 + i.val, by have := i.isLt; omega⟩) = ∑ t : Fin 32, g t :=
  (Fin.sum_univ_add (a := 16) (b := 16) g).symm

/-- A sum over all chunks, taken block by block. -/
theorem sum_blocks (h : Fin 32768 → M) :
    (∑ t : Fin 32, ∑ r : Fin 1024, h ⟨t.val * 1024 + r.val, by have := t.isLt; have := r.isLt; omega⟩)
      = ∑ n : Fin 32768, h n := by
  have hp := Fintype.sum_prod_type'
    (fun (t : Fin 32) (r : Fin 1024) => h ⟨t.val * 1024 + r.val, by have := t.isLt; have := r.isLt; omega⟩)
  rw [← hp]
  refine Fintype.sum_equiv (finProdFinEquiv (m := 32) (n := 1024)) _ h ?_
  rintro ⟨t, r⟩
  congr 1
  ext
  simp [finProdFinEquiv]
  omega

end Sums

/-- For a batch of real entries the kernel's closed form and the reference's are equal. -/
theorem Kres_eq_Rres (X : Fin 32768 → Fin 4 → Fin 256 → EReal) (hX : ∀ n c d, ∃ r : ℝ, X n c d = (r : EReal)) :
    Kres X = Rres X := by
  have hl : ∀ n c, lossR (X n) c = lossK (X n) c := fun n c => (lossK_eq_lossR (X n) (hX n) c).symm
  unfold Kres Rres
  refine congrArg (fun z => Ideal.div z big) ?_
  simp only [hl]
  refine (sum_halves (fun t => contribBlk (blk X t))).trans ?_
  refine Eq.trans ?_ (sum_blocks (fun n => ∑ c : Fin 4, lossK (X n) c))
  refine Finset.sum_congr rfl (fun t _ => ?_)
  show contribBlk (blk X t) = ∑ r : Fin 1024, ∑ c : Fin 4, lossK (blk X t r) c
  simp only [contribBlk, Fin.sum_univ_four, Finset.sum_add_distrib]

end Cert.Spec

end
-- ==== Proof.Finite.lean ====
/-
  Under the precondition every entry of both argument arrays is a real number, and so is every entry of the batch.
-/
import proofs.«136156_j6227702579662_1_alg».proof.Pre_finite_inputs
import proofs.«136156_j6227702579662_1_alg».proof.Proof.Gen.Pre_finite_inputs
import proofs.«136156_j6227702579662_1_alg».proof.Proof.Spec
import Idealize.ShloMosaic.Lib.ReduceAll

noncomputable section

namespace Cert.Spec

open Idealize.ShloMosaic

/-- The rank-0 shape has exactly one index. -/
instance subsingleton_scalarIdx : Subsingleton Cert.Pre_finite_inputs.S_.Idx :=
  ⟨fun a b => funext fun d => d.elim0⟩

/-- The f32 word `0x7F800000` denotes `+∞`. -/
theorem ofBits_inf : Ideal.ofBits .f32 0x7F800000#32 = (⊤ : EReal) := by
  simp [Ideal.ofBits, Ideal.ieee]

/-- An extended real whose absolute value `max x (-x)` compares below `+∞` is a real: both infinities have absolute
    value `+∞`. -/
theorem real_of_abs_lt_inf (x : EReal)
    (hx : Ideal.cmp .olt (max x (-x)) (Ideal.ofBits .f32 0x7F800000#32) = 1#1) : ∃ r : ℝ, x = (r : EReal) := by
  rw [ofBits_inf] at hx
  induction x using EReal.rec with
  | bot => simp [Ideal.cmp] at hx
  | top => simp [Ideal.cmp] at hx
  | coe r => exact ⟨r, rfl⟩

/-- One `jnp.all(|x| < +∞)` that came out 1 says each entry of `x` is a real. -/
theorem real_of_all (a : FVec Ideal Cert.Pre_finite_inputs.S65536x256 .f32)
    (e : Host.reduce IntOp.andi
          (cmpf .olt (Host.absf a)
            (broadcastInDim Cert.Pre_finite_inputs.S65536x256 ![] Cert.Pre_finite_inputs.Facts.bcast_S_S65536x256
              (constant Cert.Pre_finite_inputs.S_ .f32 0x7F800000#32)))
          (constantI Cert.Pre_finite_inputs.S_ 1 1#1)
          Cert.Pre_finite_inputs.Facts.reducesTo_S65536x256_S_d0_1 Cert.Pre_finite_inputs.Facts.h_S_ ValueIdx.ix0 = 1#1) :
    ∀ i, ∃ r : ℝ, a i = (r : EReal) := by
  intro i
  have hi := Host.reduce_andi_all _ _ _ _ _ e i
  exact real_of_abs_lt_inf (a i) hi

/-- The printed precondition (all ones) says each entry of `zis` and of `zjs` is a real. -/
theorem real_of_pre (a0 a1 : FVec Ideal Cert.Pre_finite_inputs.S65536x256 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨e0, e1⟩ := IntOp.andi_eq_one.1 h0
  exact ⟨real_of_all a0 e0, real_of_all a1 e1⟩

/-- So every entry of the batch of chunks is a real. -/
theorem reps_real (a0 a1 : FVec Ideal Cert.Pre_finite_inputs.S65536x256 .f32)
    (h : Cert.Pre_finite_inputs.fn (F := Ideal) a0 a1 = fun _ => 1#1) :
    ∀ n c d, ∃ r : ℝ, reps a0 a1 n c d = (r : EReal) := by
  obtain ⟨h0, h1⟩ := real_of_pre a0 a1 h
  intro n c d
  unfold reps
  split
  · exact h1 _
  · exact h0 _

end Cert.Spec

end
-- ==== Proof.lean ====
/-
  The certificate's claim: a chunked contrastive cross entropy.

  The batch is 32768 chunks of four rows (two of `zjs`, two of `zis`), each row of 256 numbers. Rows are divided by
  their clamped Euclidean norm; a row's loss is the cross entropy of its positive partner's cosine similarity against
  the similarities with its positive and its two negatives, at temperature 1/2; the result is the sum of all losses
  over 65536.

  The kernel walks a 2 × 16 grid of blocks of 1024 chunks, adding each block's losses into one of two running sums,
  and the host lines after it add the two sums and divide; the reference computes every loss at once by a batched
  matrix product, a gather and a log-softmax and takes one sum. At the ideal instance both are closed forms of the
  batch (`Cert.Spec.Kres`, `Cert.Spec.Rres`); under the precondition every entry is a real, where the two closed
  forms agree: the cross entropy written as `(m + log Σ) - x₀` is `-((x₀ - m) - log Σ)`, a product with 2 is a
  quotient by 1/2, the similarity is symmetric, and a finite sum may be regrouped. The three programs' frames are
  their runs with the results forgotten; nothing was rewritten by the idealization, so `preserves` is trivial.
-/
import proofs.«136156_j6227702579662_1_alg».proof.Defs
import proofs.«136156_j6227702579662_1_alg».proof.Proof.Gen.Kernel
import proofs.«136156_j6227702579662_1_alg».proof.Proof.Gen.KernelIdeal
import proofs.«136156_j6227702579662_1_alg».proof.Proof.Gen.ReferenceIdeal
import proofs.«136156_j6227702579662_1_alg».proof.Proof.Gen.Pre_finite_inputs
import proofs.«136156_j6227702579662_1_alg».proof.Proof.BodyK
import proofs.«136156_j6227702579662_1_alg».proof.Proof.KValue
import proofs.«136156_j6227702579662_1_alg».proof.Proof.RefRun
import proofs.«136156_j6227702579662_1_alg».proof.Proof.RefRead
import proofs.«136156_j6227702579662_1_alg».proof.Proof.Algebra
import proofs.«136156_j6227702579662_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- From memories agreeing on the arguments both idealized programs end with the same result: the kernel's closed
    form of the batch, which for the batch of reals the precondition grants is the reference's. -/
theorem algebraic : Cert.algebraic_KernelIdeal_ReferenceIdeal := by
  intro m ρ m' ρ' hpre hagree
  refine ⟨fun c => fun _ => Cert.Spec.Kres (Cert.KernelIdeal.Hand.batch m c), Cert.KernelIdeal.Hand.kernel_run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2, Cert.ReferenceIdeal.Hand.refVal_eq]
  funext _
  exact (Cert.Spec.Kres_eq_Rres _ (Cert.Spec.reps_real _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
